-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S4096x128 : Shape := ⟨2, ![4096, 128]⟩
abbrev S256x128 : Shape := ⟨2, ![256, 128]⟩
abbrev S128x128 : Shape := ⟨2, ![128, 128]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x128 : S_.BroadcastsInDim S4096x128 (![] : Fin 0 → Fin S4096x128.rank)
  reducesTo_S4096x128_S_d0_1 : S4096x128.ReducesTo [0, 1] S_
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_

variable [Facts]

def fn_part5 {F : FTy → Type} [FloatOps F] (main_arg18 : FVec F S4096x128 .f32) (main_v83 : IVec S_ 1) (main_v84 : FVec F S4096x128 .f32) (main_cst_32 : FVec F S_ .f32) : IVec S_ 1 :=
  let main_v85 : FVec F S4096x128 .f32 := broadcastInDim S4096x128 ![] bcast_S_S4096x128 main_cst_32
  let main_v86 : IVec S4096x128 1 := cmpf .olt main_v84 main_v85
  let main_c_33 : IVec S_ 1 := constantI S_ 1 1#1
  let main_v87 : IVec S_ 1 := (fun x v => Host.reduce IntOp.andi x v reducesTo_S4096x128_S_d0_1 h_S_) main_v86 main_c_33
  let main_v88 : IVec S_ 1 := andi main_v83 main_v87
  let main_v89 : FVec F S4096x128 .f32 := Host.absf main_arg18
  let main_cst_34 : FVec F S_ .f32 := constant S_ .f32 0x7F800000#32
  let main_v90 : FVec F S4096x128 .f32 := broadcastInDim S4096x128 ![] bcast_S_S4096x128 main_cst_34
  let main_v91 : IVec S4096x128 1 := cmpf .olt main_v89 main_v90
  let main_c_35 : IVec S_ 1 := constantI S_ 1 1#1
  let main_v92 : IVec S_ 1 := (fun x v => Host.reduce IntOp.andi x v reducesTo_S4096x128_S_d0_1 h_S_) main_v91 main_c_35
  let main_v93 : IVec S_ 1 := andi main_v88 main_v92
  main_v93

def fn_part4 {F : FTy → Type} [FloatOps F] (main_arg14 : FVec F S128x128 .f32) (main_arg15 : FVec F S4096x128 .f32) (main_arg16 : FVec F S4096x128 .f32) (main_arg17 : FVec F S4096x128 .f32) (main_arg18 : FVec F S4096x128 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S4096x128 .f32 := Host.absf main_arg15
  let main_cst_28 : FVec F S_ .f32 := constant S_ .f32 0x7F800000#32
  let main_v75 : FVec F S4096x128 .f32 := broadcastInDim S4096x128 ![] bcast_S_S4096x128 main_cst_28
  let main_v76 : IVec S4096x128 1 := cmpf .olt main_v74 main_v75
  let main_c_29 : IVec S_ 1 := constantI S_ 1 1#1
  let main_v77 : IVec S_ 1 := (fun x v => Host.reduce IntOp.andi x v reducesTo_S4096x128_S_d0_1 h_S_) main_v76 main_c_29
  let main_v78 : IVec S_ 1 := andi main_v73 main_v77
  let main_v79 : FVec F S4096x128 .f32 := Host.absf main_arg16
  let main_cst_30 : FVec F S_ .f32 := constant S_ .f32 0x7F800000#32
  let main_v80 : FVec F S4096x128 .f32 := broadcastInDim S4096x128 ![] bcast_S_S4096x128 main_cst_30
  let main_v81 : IVec S4096x128 1 := cmpf .olt main_v79 main_v80
  let main_c_31 : IVec S_ 1 := constantI S_ 1 1#1
  let main_v82 : IVec S_ 1 := (fun x v => Host.reduce IntOp.andi x v reducesTo_S4096x128_S_d0_1 h_S_) main_v81 main_c_31
  let main_v83 : IVec S_ 1 := andi main_v78 main_v82
  let main_v84 : FVec F S4096x128 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S128x128 .f32) (main_arg12 : FVec F S256x128 .f32) (main_arg13 : FVec F S128x128 .f32) (main_arg14 : FVec F S128x128 .f32) (main_arg15 : FVec F S4096x128 .f32) (main_arg16 : FVec F S4096x128 .f32) (main_arg17 : FVec F S4096x128 .f32) (main_arg18 : FVec F S4096x128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S256x128 .f32 := Host.absf main_arg12
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_arg17 main_arg18 main_v63 main_v67

def fn_part2 {F : FTy → Type} [FloatOps F] (main_arg7 : FVec F S256x128 .f32) (main_arg8 : FVec F S128x128 .f32) (main_arg9 : FVec F S128x128 .f32) (main_arg10 : FVec F S256x128 .f32) (main_arg11 : FVec F S128x128 .f32) (main_arg12 : FVec F S256x128 .f32) (main_arg13 : FVec F S128x128 .f32) (main_arg14 : FVec F S128x128 .f32) (main_arg15 : FVec F S4096x128 .f32) (main_arg16 : FVec F S4096x128 .f32) (main_arg17 : FVec F S4096x128 .f32) (main_arg18 : FVec F S4096x128 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S256x128 .f32 := Host.absf main_arg10
  let main_cst_18 : FVec F S_ .f32 := constant S_ .f32 0x7F800000#32
  let main_v50 : FVec F S256x128 .f32 := broadcastInDim S256x128 ![] bcast_S_S256x128 main_cst_18
  fn_part3 (F := F) main_arg11 main_arg12 main_arg13 main_arg14 main_arg15 main_arg16 main_arg17 main_arg18 main_v48 main_v49 main_v50

def fn_part1 {F : FTy → Type} [FloatOps F] (main_arg4 : FVec F S256x128 .f32) (main_arg5 : FVec F S128x128 .f32) (main_arg6 : FVec F S128x128 .f32) (main_arg7 : FVec F S256x128 .f32) (main_arg8 : FVec F S128x128 .f32) (main_arg9 : FVec F S128x128 .f32) (main_arg10 : FVec F S256x128 .f32) (main_arg11 : FVec F S128x128 .f32) (main_arg12 : FVec F S256x128 .f32) (main_arg13 : FVec F S128x128 .f32) (main_arg14 : FVec F S128x128 .f32) (main_arg15 : FVec F S4096x128 .f32) (main_arg16 : FVec F S4096x128 .f32) (main_arg17 : FVec F S4096x128 .f32) (main_arg18 : FVec F S4096x128 .f32) (main_v13 : IVec S_ 1) (main_v16 : IVec S4096x128 1) : IVec S_ 1 :=
  let main_c_5 : IVec S_ 1 := constantI S_ 1 1#1
  let main_v17 : IVec S_ 1 := (fun x v => Host.reduce IntOp.andi x v reducesTo_S4096x128_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S4096x256 .f32) (main_arg1 : FVec F S4096x4096 .f32) (main_arg2 : FVec F S4096x128 .f32) (main_arg3 : FVec F S4096x128 .f32) (main_arg4 : FVec F S256x128 .f32) (main_arg5 : FVec F S128x128 .f32) (main_arg6 : FVec F S128x128 .f32) (main_arg7 : FVec F S256x128 .f32) (main_arg8 : FVec F S128x128 .f32) (main_arg9 : FVec F S128x128 .f32) (main_arg10 : FVec F S256x128 .f32) (main_arg11 : FVec F S128x128 .f32) (main_arg12 : FVec F S256x128 .f32) (main_arg13 : FVec F S128x128 .f32) (main_arg14 : FVec F S128x128 .f32) (main_arg15 : FVec F S4096x128 .f32) (main_arg16 : FVec F S4096x128 .f32) (main_arg17 : FVec F S4096x128 .f32) (main_arg18 : FVec F S4096x128 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S4096x128 .f32 := Host.absf main_arg3
  let main_cst_4 : FVec F S_ .f32 := constant S_ .f32 0x7F800000#32
  let main_v15 : FVec F S4096x128 .f32 := broadcastInDim S4096x128 ![] bcast_S_S4096x128 main_cst_4
  let main_v16 : IVec S4096x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S4096x256 : Shape := ⟨2, ![4096, 256]⟩
abbrev S4096x4096 : Shape := ⟨2, ![4096, 4096]⟩
abbrev S4096x128 : Shape := ⟨2, ![4096, 128]⟩
abbrev S256x128 : Shape := ⟨2, ![256, 128]⟩
abbrev S128x128 : Shape := ⟨2, ![128, 128]⟩
abbrev S4096x512 : Shape := ⟨2, ![4096, 512]⟩
abbrev S_ : Shape := ⟨0, ![]⟩
abbrev S256x512 : Shape := ⟨2, ![256, 512]⟩
abbrev S128x512 : Shape := ⟨2, ![128, 512]⟩
abbrev S512x512 : Shape := ⟨2, ![512, 512]⟩
abbrev S512x4096 : Shape := ⟨2, ![512, 4096]⟩
abbrev S512x128 : Shape := ⟨2, ![512, 128]⟩

abbrev nBuf : Space → Nat
  | .hbm => 28
  | .vmem => 18
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x128, .f32⟩
  | .hbm, ⟨3, _⟩ => ⟨S4096x128, .f32⟩
  | .hbm, ⟨4, _⟩ => ⟨S256x128, .f32⟩
  | .hbm, ⟨5, _⟩ => ⟨S128x128, .f32⟩
  | .hbm, ⟨6, _⟩ => ⟨S128x128, .f32⟩
  | .hbm, ⟨7, _⟩ => ⟨S256x128, .f32⟩
  | .hbm, ⟨8, _⟩ => ⟨S128x128, .f32⟩
  | .hbm, ⟨9, _⟩ => ⟨S128x128, .f32⟩
  | .hbm, ⟨10, _⟩ => ⟨S256x128, .f32⟩
  | .hbm, ⟨11, _⟩ => ⟨S128x128, .f32⟩
  | .hbm, ⟨12, _⟩ => ⟨S256x128, .f32⟩
  | .hbm, ⟨13, _⟩ => ⟨S128x128, .f32⟩
  | .hbm, ⟨14, _⟩ => ⟨S128x128, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S4096x512, .f32⟩
  | .hbm, ⟨20, _⟩ => ⟨S_, .f32⟩
  | .hbm, ⟨21, _⟩ => ⟨S128x128, .f32⟩
  | .hbm, ⟨22, _⟩ => ⟨S256x512, .f32⟩
  | .hbm, ⟨23, _⟩ => ⟨S128x512, .f32⟩
  | .hbm, ⟨24, _⟩ => ⟨S128x512, .f32⟩
  | .hbm, ⟨25, _⟩ => ⟨S512x512, .f32⟩
  | .hbm, ⟨26, _⟩ => ⟨S4096x128, .f32⟩
  | .hbm, ⟨27, _⟩ => ⟨S4096x128, .f32⟩
  | .local _ .vmem, ⟨0, _⟩ => ⟨S512x4096, .f32⟩
  | .local _ .vmem, ⟨1, _⟩ => ⟨S512x4096, .f32⟩
  | .local _ .vmem, ⟨2, _⟩ => ⟨S4096x512, .f32⟩
  | .local _ .vmem, ⟨3, _⟩ => ⟨S512x512, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_cst : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6_0 : Ref sig .tc := ⟨.hbm, 26, rfl⟩
abbrev main_v6_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  concatenates_S4096x256_S4096x128_S4096x128_S4096x512_d1 : Shape.Concatenates [S4096x256, S4096x128, S4096x128] S4096x512 1
  bcast_S_S128x128 : S_.BroadcastsInDim S128x128 (![] : Fin 0 → Fin S128x128.rank)
  concatenates_S256x128_S256x128_S256x128_S256x128_S256x512_d1 : Shape.Concatenates [S256x128, S256x128, S256x128, S256x128] S256x512 1
  concatenates_S128x128_S128x128_S128x128_S128x128_S128x512_d1 : Shape.Concatenates [S128x128, S128x128, S128x128, S128x128] S128x512 1
  concatenates_S256x512_S128x512_S128x512_S512x512_d0 : Shape.Concatenates [S256x512, S128x512, S128x512] S512x512 0
  inb_S512x4096_S512x4096_0_0 : ∀ a, (![0, 0] : Fin 2 → Nat) a + S512x4096.size a ≤ S512x4096.size a
  h_S512x4096 : 0 < S512x4096.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  slices_S512x512_o0_0_S512x128 : S512x512.Slices ![0, 0] S512x128
  inb_S512x128_S512x128_0_0 : ∀ a, (![0, 0] : Fin 2 → Nat) a + S512x128.size a ≤ S512x128.size a
  h_S512x128 : 0 < S512x128.numel
  slices_S512x512_o0_128_S512x128 : S512x512.Slices ![0, 128] S512x128
  slices_S512x512_o0_256_S512x128 : S512x512.Slices ![0, 256] S512x128
  slices_S512x512_o0_384_S512x128 : S512x512.Slices ![0, 384] S512x128
  dot_S512x4096_S4096x512_S512x512_1_0_0_1_n_n_wf : DotDims.WF S512x4096 S4096x512 S512x512 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .f32 = 32 ∨ (Rect.block (s := S4096x512) S4096x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S4096x128.size a
  hwx0_3 : ∀ i : grid0.Coords, EltTy.bits .f32 = 32 ∨ (Rect.block (s := S4096x128) S512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S4096x128.size a
  hwx0_4 : ∀ i : grid0.Coords, EltTy.bits .f32 = 32 ∨ (Rect.block (s := S4096x128) S512x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S4096x128.size a
  hwx0_5 : ∀ i : grid0.Coords, EltTy.bits .f32 = 32 ∨ (Rect.block (s := S4096x128) S512x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S4096x128.size a
  hwx0_6 : ∀ i : grid0.Coords, EltTy.bits .f32 = 32 ∨ (Rect.block (s := S4096x128) S512x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S4096x128.size a
  hwx0_7 : ∀ i : grid0.Coords, EltTy.bits .f32 = 32 ∨ (Rect.block (s := S4096x128) S512x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x128.size a ≤ S4096x128.size a
  hwx0_8 : ∀ i : grid0.Coords, EltTy.bits .f32 = 32 ∨ (Rect.block (s := S4096x128) S512x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x128.size a ≤ S4096x128.size a
  hwx0_9 : ∀ i : grid0.Coords, EltTy.bits .f32 = 32 ∨ (Rect.block (s := S4096x128) S512x128.size (cc0_transform_9 i) (hinb0_9 i)).WholeWords (EltTy.packing .f32)

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg15) S512x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg16) S512x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg17) S512x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg18) S512x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_0) S512x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_1) S512x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S4096x128 : Shape := ⟨2, ![4096, 128]⟩
abbrev S256x128 : Shape := ⟨2, ![256, 128]⟩
abbrev S128x128 : Shape := ⟨2, ![128, 128]⟩
abbrev S_ : Shape := ⟨0, ![]⟩

abbrev nBuf : Space → Nat
  | .hbm => 91
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x128, .f32⟩
  | .hbm, ⟨3, _⟩ => ⟨S4096x128, .f32⟩
  | .hbm, ⟨4, _⟩ => ⟨S256x128, .f32⟩
  | .hbm, ⟨5, _⟩ => ⟨S128x128, .f32⟩
  | .hbm, ⟨6, _⟩ => ⟨S128x128, .f32⟩
  | .hbm, ⟨7, _⟩ => ⟨S256x128, .f32⟩
  | .hbm, ⟨8, _⟩ => ⟨S128x128, .f32⟩
  | .hbm, ⟨9, _⟩ => ⟨S128x128, .f32⟩
  | .hbm, ⟨10, _⟩ => ⟨S256x128, .f32⟩
  | .hbm, ⟨11, _⟩ => ⟨S128x128, .f32⟩
  | .hbm, ⟨12, _⟩ => ⟨S256x128, .f32⟩
  | .hbm, ⟨13, _⟩ => ⟨S128x128, .f32⟩
  | .hbm, ⟨14, _⟩ => ⟨S128x128, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S4096x128, .f32⟩
  | .hbm, ⟨21, _⟩ => ⟨S4096x128, .f32⟩
  | .hbm, ⟨22, _⟩ => ⟨S4096x128, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S4096x128, .f32⟩
  | .hbm, ⟨27, _⟩ => ⟨S4096x128, .f32⟩
  | .hbm, ⟨28, _⟩ => ⟨S4096x128, .f32⟩
  | .hbm, ⟨29, _⟩ => ⟨S4096x128, .f32⟩
  | .hbm, ⟨30, _⟩ => ⟨S_, .f32⟩
  | .hbm, ⟨31, _⟩ => ⟨S4096x128, .f32⟩
  | .hbm, ⟨32, _⟩ => ⟨S4096x128, .f32⟩
  | .hbm, ⟨33, _⟩ => ⟨S_, .f32⟩
  | .hbm, ⟨34, _⟩ => ⟨S4096x128, .f32⟩
  | .hbm, ⟨35, _⟩ => ⟨S4096x128, .f32⟩
  | .hbm, ⟨36, _⟩ => ⟨S4096x128, .f32⟩
  | .hbm, ⟨37, _⟩ => ⟨S4096x128, .f32⟩
  | .hbm, ⟨38, _⟩ => ⟨S4096x128, .f32⟩
  | .hbm, ⟨39, _⟩ => ⟨S4096x128, .f32⟩
  | .hbm, ⟨40, _⟩ => ⟨S4096x128, .f32⟩
  | .hbm, ⟨41, _⟩ => ⟨S4096x128, .f32⟩
  | .hbm, ⟨42, _⟩ => ⟨S4096x128, .f32⟩
  | .hbm, ⟨43, _⟩ => ⟨S4096x128, .f32⟩
  | .hbm, ⟨44, _⟩ => ⟨S4096x128, .f32⟩
  | .hbm, ⟨45, _⟩ => ⟨S4096x128, .f32⟩
  | .hbm, ⟨46, _⟩ => ⟨S4096x128, .f32⟩
  | .hbm, ⟨47, _⟩ => ⟨S_, .f32⟩
  | .hbm, ⟨48, _⟩ => ⟨S4096x128, .f32⟩
  | .hbm, ⟨49, _⟩ => ⟨S4096x128, .f32⟩
  | .hbm, ⟨50, _⟩ => ⟨S_, .f32⟩
  | .hbm, ⟨51, _⟩ => ⟨S4096x128, .f32⟩
  | .hbm, ⟨52, _⟩ => ⟨S4096x128, .f32⟩
  | .hbm, ⟨53, _⟩ => ⟨S4096x128, .f32⟩
  | .hbm, ⟨54, _⟩ => ⟨S4096x128, .f32⟩
  | .hbm, ⟨55, _⟩ => ⟨S4096x128, .f32⟩
  | .hbm, ⟨56, _⟩ => ⟨S4096x128, .f32⟩
  | .hbm, ⟨57, _⟩ => ⟨S4096x128, .f32⟩
  | .hbm, ⟨58, _⟩ => ⟨S4096x128, .f32⟩
  | .hbm, ⟨59, _⟩ => ⟨S4096x128, .f32⟩
  | .hbm, ⟨60, _⟩ => ⟨S4096x128, .f32⟩
  | .hbm, ⟨61, _⟩ => ⟨S4096x128, .f32⟩
  | .hbm, ⟨62, _⟩ => ⟨S4096x128, .f32⟩
  | .hbm, ⟨63, _⟩ => ⟨S4096x128, .f32⟩
  | .hbm, ⟨64, _⟩ => ⟨S_, .f32⟩
  | .hbm, ⟨65, _⟩ => ⟨S4096x128, .f32⟩
  | .hbm, ⟨66, _⟩ => ⟨S4096x128, .f32⟩
  | .hbm, ⟨67, _⟩ => ⟨S_, .f32⟩
  | .hbm, ⟨68, _⟩ => ⟨S4096x128, .f32⟩
  | .hbm, ⟨69, _⟩ => ⟨S4096x128, .f32⟩
  | .hbm, ⟨70, _⟩ => ⟨S4096x128, .f32⟩
  | .hbm, ⟨71, _⟩ => ⟨S4096x128, .f32⟩
  | .hbm, ⟨72, _⟩ => ⟨S4096x128, .f32⟩
  | .hbm, ⟨73, _⟩ => ⟨S4096x128, .f32⟩
  | .hbm, ⟨74, _⟩ => ⟨S4096x128, .f32⟩
  | .hbm, ⟨75, _⟩ => ⟨S4096x128, .f32⟩
  | .hbm, ⟨76, _⟩ => ⟨S4096x128, .f32⟩
  | .hbm, ⟨77, _⟩ => ⟨S4096x128, .f32⟩
  | .hbm, ⟨78, _⟩ => ⟨S4096x128, .f32⟩
  | .hbm, ⟨79, _⟩ => ⟨S4096x128, .f32⟩
  | .hbm, ⟨80, _⟩ => ⟨S4096x128, .f32⟩
  | .hbm, ⟨81, _⟩ => ⟨S4096x128, .f32⟩
  | .hbm, ⟨82, _⟩ => ⟨S4096x128, .f32⟩
  | .hbm, ⟨83, _⟩ => ⟨S_, .f32⟩
  | .hbm, ⟨84, _⟩ => ⟨S4096x128, .f32⟩
  | .hbm, ⟨85, _⟩ => ⟨S4096x128, .f32⟩
  | .hbm, ⟨86, _⟩ => ⟨S_, .f32⟩
  | .hbm, ⟨87, _⟩ => ⟨S4096x128, .f32⟩
  | .hbm, ⟨88, _⟩ => ⟨S4096x128, .f32⟩
  | .hbm, ⟨89, _⟩ => ⟨S4096x128, .f32⟩
  | .hbm, ⟨90, _⟩ => ⟨S4096x128, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_cst_0 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_1 : Ref sig .tc := ⟨.hbm, 47, rfl⟩
abbrev main_v26 : Ref sig .tc := ⟨.hbm, 48, rfl⟩
abbrev main_v27 : Ref sig .tc := ⟨.hbm, 49, rfl⟩
abbrev main_cst_2 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_3 : Ref sig .tc := ⟨.hbm, 64, rfl⟩
abbrev main_v41 : Ref sig .tc := ⟨.hbm, 65, rfl⟩
abbrev main_v42 : Ref sig .tc := ⟨.hbm, 66, rfl⟩
abbrev main_cst_4 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_5 : Ref sig .tc := ⟨.hbm, 83, rfl⟩
abbrev main_v58 : Ref sig .tc := ⟨.hbm, 84, rfl⟩
abbrev main_v59 : Ref sig .tc := ⟨.hbm, 85, rfl⟩
abbrev main_cst_6 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩

abbrev nD : Nat := 1
abbrev τ : Topo := Topo.v7x

variable {F : FTy → Type} [FloatOps F]

class Facts₀ : Prop where
  bcast_S_S4096x128 : S_.BroadcastsInDim S4096x128 (![] : Fin 0 → Fin S4096x128.rank)
  dot_S4096x256_S256x128_S4096x128_1_0_0_1_n_n_wf : DotDims.WF S4096x256 S256x128 S4096x128 [1] [0] [0] [1] [] []
  dot_S4096x4096_S4096x128_S4096x128_1_0_0_1_n_n_wf : DotDims.WF S4096x4096 S4096x128 S4096x128 [1] [0] [0] [1] [] []
  dot_S4096x128_S128x128_S4096x128_1_0_0_1_n_n_wf : DotDims.WF S4096x128 S128x128 S4096x128 [1] [0] [0] [1] [] []

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

class Facts : Prop extends Facts₀ where

variable [Facts]
-- ==== Proof.CellFrame.lean ====
/-
  The graph-convolution LSTM cell as a program: that it runs to the end and what it leaves, at any float instance.

  @main first builds, on the host, Z = [X | h | c] (4096 x 512) and the 512 x 512 block matrix whose column blocks are
  the gates i, f, o, g and whose row blocks are the weights applied to X, to h and to c (the c-to-g block is zero);
  then ONE pallas_call walks the 8 blocks of 512 rows of A.  At a point the body reads its row block of A, all of Z,
  all of the block matrix and the point's 512 x 128 blocks of c and of the four biases, and writes the point's blocks
  of h_new and c_new, each whole; it reads both output buffers before it overwrites them and uses neither value.

  Here: the buffers' contents when the region is entered (`entry`: the host operations applied to the launch memory;
  no argument array is among the buffers they write), the two output blocks as functions of the eight input blocks
  (`hBlock`, `cBlock`: the one store into each buffer covers it), the body's triple, the pipeline's proof data, and
  the run: every weakly fair execution of @main terminates with h_new and c_new at the arrays the write-backs
  assemble from those blocks and every argument array as launched (`run_named`), hence the frame (`frame`).
-/
import proofs.«163595_g21629455302669_cont_8to1_1577_2_alg».proof.Proof.Gen.KernelIdeal.Launch
import proofs.«163595_g21629455302669_cont_8to1_1577_2_alg».proof.Proof.Gen.KernelIdeal.Skeleton
import proofs.«163595_g21629455302669_cont_8to1_1577_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.CellFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers after the seven host operations (the concatenations that build Z and the block matrix). -/
abbrev entry (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- @main is those operations and then the region. -/
theorem entry_main (𝒱₀ : Variants) : Pipeline.HMain (Ix := Unit) (Name := ℕ) (U := UR sig nD τ) (Lvl := ℕ) cfgs 0 defs₀ 𝒱₀ m (main (F := F)) (entry m) :=
  Pipeline.hmain_prefixes cfgs 0 defs₀ 𝒱₀ m main [hostOps0] (by simp only [List.Forall]; exact hostOps0_sub)
    (by simp only [List.Forall]; exact hostOps0_fresh) main_chain

/-- A host operation writes its result buffer only, and no argument array is a result: the region finds it as launched. -/
local macro "untouched " r:term : tactic => `(tactic|
  exact StableHlo.after_of_forall_not_mem (b := Proc.devRef .tc $r) _ _ (List.forall_iff_forall_mem.mp (by
    simp only [hostOps0, List.flatten_cons, List.flatten_nil, List.append_nil, List.cons_append, List.nil_append, List.Forall,
      StableHlo.nullary_writes, StableHlo.unary_writes, StableHlo.nary_writes, Finset.mem_singleton]
    repeat' apply And.intro
    all_goals exact StableHlo.devRef_ne_of_ne (by decide))))

theorem entry_arg0 (c : Dev nD) : entry m c main_arg0 = m ((c : Thread nD τ).loc main_arg0) := by untouched main_arg0
theorem entry_arg1 (c : Dev nD) : entry m c main_arg1 = m ((c : Thread nD τ).loc main_arg1) := by untouched main_arg1
theorem entry_arg2 (c : Dev nD) : entry m c main_arg2 = m ((c : Thread nD τ).loc main_arg2) := by untouched main_arg2
theorem entry_arg3 (c : Dev nD) : entry m c main_arg3 = m ((c : Thread nD τ).loc main_arg3) := by untouched main_arg3
theorem entry_arg4 (c : Dev nD) : entry m c main_arg4 = m ((c : Thread nD τ).loc main_arg4) := by untouched main_arg4
theorem entry_arg5 (c : Dev nD) : entry m c main_arg5 = m ((c : Thread nD τ).loc main_arg5) := by untouched main_arg5
theorem entry_arg6 (c : Dev nD) : entry m c main_arg6 = m ((c : Thread nD τ).loc main_arg6) := by untouched main_arg6
theorem entry_arg7 (c : Dev nD) : entry m c main_arg7 = m ((c : Thread nD τ).loc main_arg7) := by untouched main_arg7
theorem entry_arg8 (c : Dev nD) : entry m c main_arg8 = m ((c : Thread nD τ).loc main_arg8) := by untouched main_arg8
theorem entry_arg9 (c : Dev nD) : entry m c main_arg9 = m ((c : Thread nD τ).loc main_arg9) := by untouched main_arg9
theorem entry_arg10 (c : Dev nD) : entry m c main_arg10 = m ((c : Thread nD τ).loc main_arg10) := by untouched main_arg10
theorem entry_arg11 (c : Dev nD) : entry m c main_arg11 = m ((c : Thread nD τ).loc main_arg11) := by untouched main_arg11
theorem entry_arg12 (c : Dev nD) : entry m c main_arg12 = m ((c : Thread nD τ).loc main_arg12) := by untouched main_arg12
theorem entry_arg13 (c : Dev nD) : entry m c main_arg13 = m ((c : Thread nD τ).loc main_arg13) := by untouched main_arg13
theorem entry_arg14 (c : Dev nD) : entry m c main_arg14 = m ((c : Thread nD τ).loc main_arg14) := by untouched main_arg14
theorem entry_arg15 (c : Dev nD) : entry m c main_arg15 = m ((c : Thread nD τ).loc main_arg15) := by untouched main_arg15
theorem entry_arg16 (c : Dev nD) : entry m c main_arg16 = m ((c : Thread nD τ).loc main_arg16) := by untouched main_arg16
theorem entry_arg17 (c : Dev nD) : entry m c main_arg17 = m ((c : Thread nD τ).loc main_arg17) := by untouched main_arg17
theorem entry_arg18 (c : Dev nD) : entry m c main_arg18 = m ((c : Thread nD τ).loc main_arg18) := by untouched main_arg18

/-! ## The blocks -/

/-- Window `w`'s block at point `t`, cut out of its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! ## What the body computes -/

abbrev rA : Rect S512x4096 := Rect.unit (s := S512x4096) ![0, 0] S512x4096.size inb_S512x4096_S512x4096_0_0
abbrev rZ : Rect S4096x512 := Rect.unit (s := S4096x512) ![0, 0] S4096x512.size inb_S4096x512_S4096x512_0_0
abbrev rW : Rect S512x512 := Rect.unit (s := S512x512) ![0, 0] S512x512.size inb_S512x512_S512x512_0_0
abbrev rG : Rect S512x128 := Rect.unit (s := S512x128) ![0, 0] S512x128.size inb_S512x128_S512x128_0_0

/-- The h_new block from the point's input blocks (A's rows, Z, the block matrix, c, and the biases of i, f, g, o in
    the windows' order): the one store into the buffer, the whole block. -/
def hBlock (a : Vec F S512x4096 .f32) (z : Vec F S4096x512 .f32) (w : Vec F S512x512 .f32) (cc bi bf bg bo : Vec F S512x128 .f32) : Vec F S512x128 .f32 :=
  View.canon [⟨rG, k0_pay3 (View.ld a rA) (View.ld z rZ) (View.ld w rW) (View.ld bi rG) (View.ld bf rG) (View.ld bo rG) (View.ld bg rG) (View.ld cc rG)⟩]

/-- The c_new block likewise (the output gate's bias does not enter it). -/
def cBlock (a : Vec F S512x4096 .f32) (z : Vec F S4096x512 .f32) (w : Vec F S512x512 .f32) (cc bi bf bg bo : Vec F S512x128 .f32) : Vec F S512x128 .f32 :=
  View.canon [⟨rG, k0_pay2 (View.ld a rA) (View.ld z rZ) (View.ld w rW) (View.ld bi rG) (View.ld bf rG) (View.ld bg rG) (View.ld cc rG)⟩]

/-- One store of the whole 512 x 128 rectangle covers the buffer. -/
theorem whole_covers (p0 : Vec F S512x128 .f32) (y : S512x128.Idx) :
    ∃ pc ∈ ([⟨rG, p0⟩] : List (View.Piece (Elt F) S512x128 .f32)), y ∈ pc.1.set :=
  View.cover_of_tiled [⟨rG, p0⟩] S512x128.size (by rfl) y

set_option maxHeartbeats 4000000 in
/-- The body on whole staging buffers: the eight inputs' are read and left as they were, the two outputs', whatever
    they held, end at `hBlock` and `cBlock` of the inputs'. -/
theorem cell_triple (c : Dev nD) (E : Set ℕ) (i : grid0.Coords)
    (arg1 : Memref sig .tc .vmem S512x4096 .f32) (harg1 : arg1.IsWhole) (arg2 : Memref sig .tc .vmem S4096x512 .f32) (harg2 : arg2.IsWhole)
    (arg3 : Memref sig .tc .vmem S512x512 .f32) (harg3 : arg3.IsWhole) (arg4 : Memref sig .tc .vmem S512x128 .f32) (harg4 : arg4.IsWhole)
    (arg5 : Memref sig .tc .vmem S512x128 .f32) (harg5 : arg5.IsWhole) (arg6 : Memref sig .tc .vmem S512x128 .f32) (harg6 : arg6.IsWhole)
    (arg7 : Memref sig .tc .vmem S512x128 .f32) (harg7 : arg7.IsWhole) (arg8 : Memref sig .tc .vmem S512x128 .f32) (harg8 : arg8.IsWhole)
    (arg9 : Memref sig .tc .vmem S512x128 .f32) (harg9 : arg9.IsWhole) (arg10 : Memref sig .tc .vmem S512x128 .f32) (harg10 : arg10.IsWhole)
    (x0 : Vec F S512x4096 .f32) (x1 : Vec F S4096x512 .f32) (x2 : Vec F S512x512 .f32)
    (x3 x4 x5 x6 x7 : Vec F S512x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (hBlock x0 x1 x2 x3 x4 x5 x6 x7)
            ∗ owns (c : Thread nD τ) arg10 fullShare (cBlock x0 x1 x2 x3 x4 x5 x6 x7)) -∗ K ⟨⟩))
      ⊢ wp frame (wpE (defs₀ (F := F)) Variants.none c none) E
          (cc0__cell_kernel i arg1 harg1 arg2 harg2 arg3 harg3 arg4 harg4 arg5 harg5 arg6 harg6 arg7 harg7 arg8 harg8 arg9 harg9 arg10 harg10) K := by
  simp only [cc0__cell_kernel_eq_skeleton]; unfold cc0__cell_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (whole_covers _)
  iexists _; isplitr
  swap; · iexact H9
  ipureintro
  exact View.read_writes_eq_canon _ _ _ (whole_covers _)

/-! ## The pipeline's proof data -/

/-- On core `c`: the arrays as the region finds them; after the body at point `t` each input's buffer holds its block
    and the two outputs' hold `hBlock` and `cBlock` of the point's input blocks; the body keeps nothing of its own. -/
def pdat (_ : Fin 1) (c : Dev nD) : Dat τ (Elt F) Unit ℕ (UR sig nD τ) ℕ cfg0 c where
  A w := entry m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => blk m c 5 t
    | ⟨6, _⟩ => blk m c 6 t
    | ⟨7, _⟩ => blk m c 7 t
    | ⟨8, _⟩ => hBlock (blk m c 0 t) (blk m c 1 t) (blk m c 2 t) (blk m c 3 t) (blk m c 4 t) (blk m c 5 t) (blk m c 6 t) (blk m c 7 t)
    | ⟨9, _⟩ => cBlock (blk m c 0 t) (blk m c 1 t) (blk m c 2 t) (blk m c 3 t) (blk m c 4 t) (blk m c 5 t) (blk m c 6 t) (blk m c 7 t)
  Φ _ := Pipeline.ΦA spec0 c
  q _ := fullShare
  owed _ := 0

theorem pdat_A (c : Dev nD) (w : Fin cfg0.W) : (pdat m 0 c).A w = entry m c (Pipeline.arrRef spec0 w) := by
  dsimp only [pdat]

theorem left_0 (c : Dev nD) (t : Fin cfg0.N) : (pdat m 0 c).after 0 t = blk m c 0 t := by dsimp only [pdat]
theorem left_1 (c : Dev nD) (t : Fin cfg0.N) : (pdat m 0 c).after 1 t = blk m c 1 t := by dsimp only [pdat]
theorem left_2 (c : Dev nD) (t : Fin cfg0.N) : (pdat m 0 c).after 2 t = blk m c 2 t := by dsimp only [pdat]
theorem left_3 (c : Dev nD) (t : Fin cfg0.N) : (pdat m 0 c).after 3 t = blk m c 3 t := by dsimp only [pdat]
theorem left_4 (c : Dev nD) (t : Fin cfg0.N) : (pdat m 0 c).after 4 t = blk m c 4 t := by dsimp only [pdat]
theorem left_5 (c : Dev nD) (t : Fin cfg0.N) : (pdat m 0 c).after 5 t = blk m c 5 t := by dsimp only [pdat]
theorem left_6 (c : Dev nD) (t : Fin cfg0.N) : (pdat m 0 c).after 6 t = blk m c 6 t := by dsimp only [pdat]
theorem left_7 (c : Dev nD) (t : Fin cfg0.N) : (pdat m 0 c).after 7 t = blk m c 7 t := by dsimp only [pdat]
theorem left_8 (c : Dev nD) (t : Fin cfg0.N) : (pdat m 0 c).after 8 t = hBlock (blk m c 0 t) (blk m c 1 t) (blk m c 2 t) (blk m c 3 t) (blk m c 4 t) (blk m c 5 t) (blk m c 6 t) (blk m c 7 t) := by dsimp only [pdat]
theorem left_9 (c : Dev nD) (t : Fin cfg0.N) : (pdat m 0 c).after 9 t = cBlock (blk m c 0 t) (blk m c 1 t) (blk m c 2 t) (blk m c 3 t) (blk m c 4 t) (blk m c 5 t) (blk m c 6 t) (blk m c 7 t) := by dsimp only [pdat]

/-- An input's current staging buffer holds its block at every point, fetched there or not: the body leaves it in
    place, and where the pipeline does not fetch (Z and the block matrix after the first point) the block index has not moved. -/
theorem found_0 (c : Dev nD) (t : Fin cfg0.N) (d) : (pdat m 0 c).before 0 t d = blk m c 0 t :=
  ((pdat m 0 c).before_in_eq_fetched 0 rfl (fun _ => rfl) (fun _ _ _ => rfl) (fun t => by rw [left_0]; unfold Dat.blockOf blk; rw [pdat_A]; try rfl) t d).trans
    (by unfold Dat.fetched Dat.blockOf blk; rw [pdat_A]; try rfl)
theorem found_1 (c : Dev nD) (t : Fin cfg0.N) (d) : (pdat m 0 c).before 1 t d = blk m c 1 t :=
  ((pdat m 0 c).before_in_eq_fetched 1 rfl (fun _ => rfl) (fun _ _ _ => rfl) (fun t => by rw [left_1]; unfold Dat.blockOf blk; rw [pdat_A]; try rfl) t d).trans
    (by unfold Dat.fetched Dat.blockOf blk; rw [pdat_A]; try rfl)
theorem found_2 (c : Dev nD) (t : Fin cfg0.N) (d) : (pdat m 0 c).before 2 t d = blk m c 2 t :=
  ((pdat m 0 c).before_in_eq_fetched 2 rfl (fun _ => rfl) (fun _ _ _ => rfl) (fun t => by rw [left_2]; unfold Dat.blockOf blk; rw [pdat_A]; try rfl) t d).trans
    (by unfold Dat.fetched Dat.blockOf blk; rw [pdat_A]; try rfl)
theorem found_3 (c : Dev nD) (t : Fin cfg0.N) (d) : (pdat m 0 c).before 3 t d = blk m c 3 t :=
  ((pdat m 0 c).before_in_eq_fetched 3 rfl (fun _ => rfl) (fun _ _ _ => rfl) (fun t => by rw [left_3]; unfold Dat.blockOf blk; rw [pdat_A]; try rfl) t d).trans
    (by unfold Dat.fetched Dat.blockOf blk; rw [pdat_A]; try rfl)
theorem found_4 (c : Dev nD) (t : Fin cfg0.N) (d) : (pdat m 0 c).before 4 t d = blk m c 4 t :=
  ((pdat m 0 c).before_in_eq_fetched 4 rfl (fun _ => rfl) (fun _ _ _ => rfl) (fun t => by rw [left_4]; unfold Dat.blockOf blk; rw [pdat_A]; try rfl) t d).trans
    (by unfold Dat.fetched Dat.blockOf blk; rw [pdat_A]; try rfl)
theorem found_5 (c : Dev nD) (t : Fin cfg0.N) (d) : (pdat m 0 c).before 5 t d = blk m c 5 t :=
  ((pdat m 0 c).before_in_eq_fetched 5 rfl (fun _ => rfl) (fun _ _ _ => rfl) (fun t => by rw [left_5]; unfold Dat.blockOf blk; rw [pdat_A]; try rfl) t d).trans
    (by unfold Dat.fetched Dat.blockOf blk; rw [pdat_A]; try rfl)
theorem found_6 (c : Dev nD) (t : Fin cfg0.N) (d) : (pdat m 0 c).before 6 t d = blk m c 6 t :=
  ((pdat m 0 c).before_in_eq_fetched 6 rfl (fun _ => rfl) (fun _ _ _ => rfl) (fun t => by rw [left_6]; unfold Dat.blockOf blk; rw [pdat_A]; try rfl) t d).trans
    (by unfold Dat.fetched Dat.blockOf blk; rw [pdat_A]; try rfl)
theorem found_7 (c : Dev nD) (t : Fin cfg0.N) (d) : (pdat m 0 c).before 7 t d = blk m c 7 t :=
  ((pdat m 0 c).before_in_eq_fetched 7 rfl (fun _ => rfl) (fun _ _ _ => rfl) (fun t => by rw [left_7]; unfold Dat.blockOf blk; rw [pdat_A]; try rfl) t d).trans
    (by unfold Dat.fetched Dat.blockOf blk; rw [pdat_A]; try rfl)

/-! ## The body obligation -/

def handed (c : Dev nD) (t : Fin cfg0.N) : sProp 𝕄 :=
  iprop((pdat m 0 c).Φ t.castSucc ∗ (pdat m 0 c).owesAt () t.castSucc
    ∗ (∃ d, owns (c : Thread nD τ) (st0_0 t) fullShare ((pdat m 0 c).before 0 t d))
    ∗ (∃ d, owns (c : Thread nD τ) (st0_1 t) fullShare ((pdat m 0 c).before 1 t d))
    ∗ (∃ d, owns (c : Thread nD τ) (st0_2 t) fullShare ((pdat m 0 c).before 2 t d))
    ∗ (∃ d, owns (c : Thread nD τ) (st0_3 t) fullShare ((pdat m 0 c).before 3 t d))
    ∗ (∃ d, owns (c : Thread nD τ) (st0_4 t) fullShare ((pdat m 0 c).before 4 t d))
    ∗ (∃ d, owns (c : Thread nD τ) (st0_5 t) fullShare ((pdat m 0 c).before 5 t d))
    ∗ (∃ d, owns (c : Thread nD τ) (st0_6 t) fullShare ((pdat m 0 c).before 6 t d))
    ∗ (∃ d, owns (c : Thread nD τ) (st0_7 t) fullShare ((pdat m 0 c).before 7 t d))
    ∗ (∃ d, owns (c : Thread nD τ) (st0_8 t) fullShare ((pdat m 0 c).before 8 t d))
    ∗ (∃ d, owns (c : Thread nD τ) (st0_9 t) fullShare ((pdat m 0 c).before 9 t d)))

def returned (c : Dev nD) (t : Fin cfg0.N) : sProp 𝕄 :=
  iprop((pdat m 0 c).Φ t.succ ∗ (pdat m 0 c).owesAt () t.succ
    ∗ owns (c : Thread nD τ) (st0_0 t) fullShare ((pdat m 0 c).after 0 t)
    ∗ owns (c : Thread nD τ) (st0_1 t) fullShare ((pdat m 0 c).after 1 t)
    ∗ owns (c : Thread nD τ) (st0_2 t) fullShare ((pdat m 0 c).after 2 t)
    ∗ owns (c : Thread nD τ) (st0_3 t) fullShare ((pdat m 0 c).after 3 t)
    ∗ owns (c : Thread nD τ) (st0_4 t) fullShare ((pdat m 0 c).after 4 t)
    ∗ owns (c : Thread nD τ) (st0_5 t) fullShare ((pdat m 0 c).after 5 t)
    ∗ owns (c : Thread nD τ) (st0_6 t) fullShare ((pdat m 0 c).after 6 t)
    ∗ owns (c : Thread nD τ) (st0_7 t) fullShare ((pdat m 0 c).after 7 t)
    ∗ owns (c : Thread nD τ) (st0_8 t) fullShare ((pdat m 0 c).after 8 t)
    ∗ owns (c : Thread nD τ) (st0_9 t) fullShare ((pdat m 0 c).after 9 t))

/-- The body at any point: the inputs' buffers hold their blocks, so the triple applies; the invariant and the
    core's debt pass through unread. -/
theorem body_at (c : Dev nD) (t : Fin cfg0.N) :
    handed m c t ⊢ wp frame (wpE (defs₀ (F := F)) Variants.none c none) Set.univ (bodyAt0 t) (fun _ => returned m c t) := by
  unfold handed returned bodyAt0
  simp only [found_0, found_1, found_2, found_3, found_4, found_5, found_6, found_7]
  rw [show (pdat m 0 c).Φ t.succ = (pdat m 0 c).Φ t.castSucc from rfl,
    show (pdat m 0 c).owesAt () t.succ = (pdat m 0 c).owesAt () t.castSucc from rfl,
    left_0, left_1, left_2, left_3, left_4, left_5, left_6, left_7, left_8, left_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (cell_triple c Set.univ (grid0.coords t) _ _ _ _ _ _ _ _ _ _ _ _ _ _ _ _ _ _ _ _
    (blk m c 0 t) (blk m c 1 t) (blk m c 2 t) (blk m c 3 t) (blk m c 4 t) (blk m c 5 t) (blk m c 6 t) (blk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_everywhere (c : Dev nD) : BodyObligation (pdat (F := F) m 0 c) (defs₀ (F := F)) Variants.none () Set.univ := fun t => by
  rw [bigSep_W0, bigSep_W0]
  exact body_at m c t

/-! ## The run -/

set_option backward.isDefEq.respectTransparency.types false in
/-- Every weakly fair execution of @main terminates; every array a window stages ends at what the write-backs assemble
    from the proof data, every other buffer as the region found it. -/
theorem run_main : θ_run defs (onTc (τ := τ) (main (F := F))) (s₀ m ρ) (Pipeline.FramePost cfgs (pdat m) 0 (entry m)) :=
  Pipeline.θ_run_frame cfgs (pdat m) (0 : Fin 1) launch0 defs₀ Variants.none m ρ main
    (hbody := fun c => (body_everywhere m c).loose) (hshare := fun c => (pdat m 0 c).share_full fun _ => rfl)
    (howed := fun _ _ => rfl) (V := entry m) (hmain := entry_main m Variants.none) (hA := pdat_A m) (hΦ := fun _ _ => rfl)

/-- The same run with both results named and every argument array as launched. -/
theorem run_named : θ_run defs (onTc (τ := τ) (main (F := F))) ⟨m, fun _ => 0, ρ⟩ (fun r => ∀ c : Dev nD,
      r.2.mem ((c.tc : Thread nD τ).loc main_v6_0) = (pdat m 0 c).arrAt 8 cfg0.N
      ∧ r.2.mem ((c.tc : Thread nD τ).loc main_v6_1) = (pdat m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨(h c).1 8, (h c).1 9,
      ((h c).2 main_arg0 (Pipeline.mem_restRefs_of main_arg0 (by decide) (by decide))).trans (entry_arg0 m c),
      ((h c).1 0).trans (((pdat m 0 c).arrAt_in 0 rfl _).trans ((pdat_A m c 0).trans (entry_arg1 m c))),
      ((h c).2 main_arg2 (Pipeline.mem_restRefs_of main_arg2 (by decide) (by decide))).trans (entry_arg2 m c),
      ((h c).1 3).trans (((pdat m 0 c).arrAt_in 3 rfl _).trans ((pdat_A m c 3).trans (entry_arg3 m c))),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c),
      ((h c).2 main_arg12 (Pipeline.mem_restRefs_of main_arg12 (by decide) (by decide))).trans (entry_arg12 m c),
      ((h c).2 main_arg13 (Pipeline.mem_restRefs_of main_arg13 (by decide) (by decide))).trans (entry_arg13 m c),
      ((h c).2 main_arg14 (Pipeline.mem_restRefs_of main_arg14 (by decide) (by decide))).trans (entry_arg14 m c),
      ((h c).1 4).trans (((pdat m 0 c).arrAt_in 4 rfl _).trans ((pdat_A m c 4).trans (entry_arg15 m c))),
      ((h c).1 5).trans (((pdat m 0 c).arrAt_in 5 rfl _).trans ((pdat_A m c 5).trans (entry_arg16 m c))),
      ((h c).1 6).trans (((pdat m 0 c).arrAt_in 6 rfl _).trans ((pdat_A m c 6).trans (entry_arg17 m c))),
      ((h c).1 7).trans (((pdat m 0 c).arrAt_in 7 rfl _).trans ((pdat_A m c 7).trans (entry_arg18 m c)))⟩) (run_main m ρ)

/-- The frame: @main terminates, faults nowhere, and leaves its nineteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => (h c).2.2) (run_named m ρ)

end Cert.KernelIdeal.CellFrame

end
-- ==== Proof.CellFrameBits.lean ====
/-
  The graph-convolution LSTM cell as a program: that it runs to the end and what it leaves, at any float instance.

  @main first builds, on the host, Z = [X | h | c] (4096 x 512) and the 512 x 512 block matrix whose column blocks are
  the gates i, f, o, g and whose row blocks are the weights applied to X, to h and to c (the c-to-g block is zero);
  then ONE pallas_call walks the 8 blocks of 512 rows of A.  At a point the body reads its row block of A, all of Z,
  all of the block matrix and the point's 512 x 128 blocks of c and of the four biases, and writes the point's blocks
  of h_new and c_new, each whole; it reads both output buffers before it overwrites them and uses neither value.

  Here: the buffers' contents when the region is entered (`entry`: the host operations applied to the launch memory;
  no argument array is among the buffers they write), the two output blocks as functions of the eight input blocks
  (`hBlock`, `cBlock`: the one store into each buffer covers it), the body's triple, the pipeline's proof data, and
  the run: every weakly fair execution of @main terminates with h_new and c_new at the arrays the write-backs
  assemble from those blocks and every argument array as launched (`run_named`), hence the frame (`frame`).
-/
import proofs.«163595_g21629455302669_cont_8to1_1577_2_alg».proof.Proof.Gen.Kernel.Launch
import proofs.«163595_g21629455302669_cont_8to1_1577_2_alg».proof.Proof.Gen.Kernel.Skeleton
import proofs.«163595_g21629455302669_cont_8to1_1577_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.CellFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers after the seven host operations (the concatenations that build Z and the block matrix). -/
abbrev entry (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- @main is those operations and then the region. -/
theorem entry_main (𝒱₀ : Variants) : Pipeline.HMain (Ix := Unit) (Name := ℕ) (U := UR sig nD τ) (Lvl := ℕ) cfgs 0 defs₀ 𝒱₀ m (main (F := F)) (entry m) :=
  Pipeline.hmain_prefixes cfgs 0 defs₀ 𝒱₀ m main [hostOps0] (by simp only [List.Forall]; exact hostOps0_sub)
    (by simp only [List.Forall]; exact hostOps0_fresh) main_chain

/-- A host operation writes its result buffer only, and no argument array is a result: the region finds it as launched. -/
local macro "untouched " r:term : tactic => `(tactic|
  exact StableHlo.after_of_forall_not_mem (b := Proc.devRef .tc $r) _ _ (List.forall_iff_forall_mem.mp (by
    simp only [hostOps0, List.flatten_cons, List.flatten_nil, List.append_nil, List.cons_append, List.nil_append, List.Forall,
      StableHlo.nullary_writes, StableHlo.unary_writes, StableHlo.nary_writes, Finset.mem_singleton]
    repeat' apply And.intro
    all_goals exact StableHlo.devRef_ne_of_ne (by decide))))

theorem entry_arg0 (c : Dev nD) : entry m c main_arg0 = m ((c : Thread nD τ).loc main_arg0) := by untouched main_arg0
theorem entry_arg1 (c : Dev nD) : entry m c main_arg1 = m ((c : Thread nD τ).loc main_arg1) := by untouched main_arg1
theorem entry_arg2 (c : Dev nD) : entry m c main_arg2 = m ((c : Thread nD τ).loc main_arg2) := by untouched main_arg2
theorem entry_arg3 (c : Dev nD) : entry m c main_arg3 = m ((c : Thread nD τ).loc main_arg3) := by untouched main_arg3
theorem entry_arg4 (c : Dev nD) : entry m c main_arg4 = m ((c : Thread nD τ).loc main_arg4) := by untouched main_arg4
theorem entry_arg5 (c : Dev nD) : entry m c main_arg5 = m ((c : Thread nD τ).loc main_arg5) := by untouched main_arg5
theorem entry_arg6 (c : Dev nD) : entry m c main_arg6 = m ((c : Thread nD τ).loc main_arg6) := by untouched main_arg6
theorem entry_arg7 (c : Dev nD) : entry m c main_arg7 = m ((c : Thread nD τ).loc main_arg7) := by untouched main_arg7
theorem entry_arg8 (c : Dev nD) : entry m c main_arg8 = m ((c : Thread nD τ).loc main_arg8) := by untouched main_arg8
theorem entry_arg9 (c : Dev nD) : entry m c main_arg9 = m ((c : Thread nD τ).loc main_arg9) := by untouched main_arg9
theorem entry_arg10 (c : Dev nD) : entry m c main_arg10 = m ((c : Thread nD τ).loc main_arg10) := by untouched main_arg10
theorem entry_arg11 (c : Dev nD) : entry m c main_arg11 = m ((c : Thread nD τ).loc main_arg11) := by untouched main_arg11
theorem entry_arg12 (c : Dev nD) : entry m c main_arg12 = m ((c : Thread nD τ).loc main_arg12) := by untouched main_arg12
theorem entry_arg13 (c : Dev nD) : entry m c main_arg13 = m ((c : Thread nD τ).loc main_arg13) := by untouched main_arg13
theorem entry_arg14 (c : Dev nD) : entry m c main_arg14 = m ((c : Thread nD τ).loc main_arg14) := by untouched main_arg14
theorem entry_arg15 (c : Dev nD) : entry m c main_arg15 = m ((c : Thread nD τ).loc main_arg15) := by untouched main_arg15
theorem entry_arg16 (c : Dev nD) : entry m c main_arg16 = m ((c : Thread nD τ).loc main_arg16) := by untouched main_arg16
theorem entry_arg17 (c : Dev nD) : entry m c main_arg17 = m ((c : Thread nD τ).loc main_arg17) := by untouched main_arg17
theorem entry_arg18 (c : Dev nD) : entry m c main_arg18 = m ((c : Thread nD τ).loc main_arg18) := by untouched main_arg18

/-! ## The blocks -/

/-- Window `w`'s block at point `t`, cut out of its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! ## What the body computes -/

abbrev rA : Rect S512x4096 := Rect.unit (s := S512x4096) ![0, 0] S512x4096.size inb_S512x4096_S512x4096_0_0
abbrev rZ : Rect S4096x512 := Rect.unit (s := S4096x512) ![0, 0] S4096x512.size inb_S4096x512_S4096x512_0_0
abbrev rW : Rect S512x512 := Rect.unit (s := S512x512) ![0, 0] S512x512.size inb_S512x512_S512x512_0_0
abbrev rG : Rect S512x128 := Rect.unit (s := S512x128) ![0, 0] S512x128.size inb_S512x128_S512x128_0_0

/-- The h_new block from the point's input blocks (A's rows, Z, the block matrix, c, and the biases of i, f, g, o in
    the windows' order): the one store into the buffer, the whole block. -/
def hBlock (a : Vec F S512x4096 .f32) (z : Vec F S4096x512 .f32) (w : Vec F S512x512 .f32) (cc bi bf bg bo : Vec F S512x128 .f32) : Vec F S512x128 .f32 :=
  View.canon [⟨rG, k0_pay3 (View.ld a rA) (View.ld z rZ) (View.ld w rW) (View.ld bi rG) (View.ld bf rG) (View.ld bo rG) (View.ld bg rG) (View.ld cc rG)⟩]

/-- The c_new block likewise (the output gate's bias does not enter it). -/
def cBlock (a : Vec F S512x4096 .f32) (z : Vec F S4096x512 .f32) (w : Vec F S512x512 .f32) (cc bi bf bg bo : Vec F S512x128 .f32) : Vec F S512x128 .f32 :=
  View.canon [⟨rG, k0_pay2 (View.ld a rA) (View.ld z rZ) (View.ld w rW) (View.ld bi rG) (View.ld bf rG) (View.ld bg rG) (View.ld cc rG)⟩]

/-- One store of the whole 512 x 128 rectangle covers the buffer. -/
theorem whole_covers (p0 : Vec F S512x128 .f32) (y : S512x128.Idx) :
    ∃ pc ∈ ([⟨rG, p0⟩] : List (View.Piece (Elt F) S512x128 .f32)), y ∈ pc.1.set :=
  View.cover_of_tiled [⟨rG, p0⟩] S512x128.size (by rfl) y

set_option maxHeartbeats 4000000 in
/-- The body on whole staging buffers: the eight inputs' are read and left as they were, the two outputs', whatever
    they held, end at `hBlock` and `cBlock` of the inputs'. -/
theorem cell_triple (c : Dev nD) (E : Set ℕ) (i : grid0.Coords)
    (arg1 : Memref sig .tc .vmem S512x4096 .f32) (harg1 : arg1.IsWhole) (arg2 : Memref sig .tc .vmem S4096x512 .f32) (harg2 : arg2.IsWhole)
    (arg3 : Memref sig .tc .vmem S512x512 .f32) (harg3 : arg3.IsWhole) (arg4 : Memref sig .tc .vmem S512x128 .f32) (harg4 : arg4.IsWhole)
    (arg5 : Memref sig .tc .vmem S512x128 .f32) (harg5 : arg5.IsWhole) (arg6 : Memref sig .tc .vmem S512x128 .f32) (harg6 : arg6.IsWhole)
    (arg7 : Memref sig .tc .vmem S512x128 .f32) (harg7 : arg7.IsWhole) (arg8 : Memref sig .tc .vmem S512x128 .f32) (harg8 : arg8.IsWhole)
    (arg9 : Memref sig .tc .vmem S512x128 .f32) (harg9 : arg9.IsWhole) (arg10 : Memref sig .tc .vmem S512x128 .f32) (harg10 : arg10.IsWhole)
    (x0 : Vec F S512x4096 .f32) (x1 : Vec F S4096x512 .f32) (x2 : Vec F S512x512 .f32)
    (x3 x4 x5 x6 x7 : Vec F S512x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (hBlock x0 x1 x2 x3 x4 x5 x6 x7)
            ∗ owns (c : Thread nD τ) arg10 fullShare (cBlock x0 x1 x2 x3 x4 x5 x6 x7)) -∗ K ⟨⟩))
      ⊢ wp frame (wpE (defs₀ (F := F)) Variants.none c none) E
          (cc0__cell_kernel i arg1 harg1 arg2 harg2 arg3 harg3 arg4 harg4 arg5 harg5 arg6 harg6 arg7 harg7 arg8 harg8 arg9 harg9 arg10 harg10) K := by
  simp only [cc0__cell_kernel_eq_skeleton]; unfold cc0__cell_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (whole_covers _)
  iexists _; isplitr
  swap; · iexact H9
  ipureintro
  exact View.read_writes_eq_canon _ _ _ (whole_covers _)

/-! ## The pipeline's proof data -/

/-- On core `c`: the arrays as the region finds them; after the body at point `t` each input's buffer holds its block
    and the two outputs' hold `hBlock` and `cBlock` of the point's input blocks; the body keeps nothing of its own. -/
def pdat (_ : Fin 1) (c : Dev nD) : Dat τ (Elt F) Unit ℕ (UR sig nD τ) ℕ cfg0 c where
  A w := entry m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => blk m c 5 t
    | ⟨6, _⟩ => blk m c 6 t
    | ⟨7, _⟩ => blk m c 7 t
    | ⟨8, _⟩ => hBlock (blk m c 0 t) (blk m c 1 t) (blk m c 2 t) (blk m c 3 t) (blk m c 4 t) (blk m c 5 t) (blk m c 6 t) (blk m c 7 t)
    | ⟨9, _⟩ => cBlock (blk m c 0 t) (blk m c 1 t) (blk m c 2 t) (blk m c 3 t) (blk m c 4 t) (blk m c 5 t) (blk m c 6 t) (blk m c 7 t)
  Φ _ := Pipeline.ΦA spec0 c
  q _ := fullShare
  owed _ := 0

theorem pdat_A (c : Dev nD) (w : Fin cfg0.W) : (pdat m 0 c).A w = entry m c (Pipeline.arrRef spec0 w) := by
  dsimp only [pdat]

theorem left_0 (c : Dev nD) (t : Fin cfg0.N) : (pdat m 0 c).after 0 t = blk m c 0 t := by dsimp only [pdat]
theorem left_1 (c : Dev nD) (t : Fin cfg0.N) : (pdat m 0 c).after 1 t = blk m c 1 t := by dsimp only [pdat]
theorem left_2 (c : Dev nD) (t : Fin cfg0.N) : (pdat m 0 c).after 2 t = blk m c 2 t := by dsimp only [pdat]
theorem left_3 (c : Dev nD) (t : Fin cfg0.N) : (pdat m 0 c).after 3 t = blk m c 3 t := by dsimp only [pdat]
theorem left_4 (c : Dev nD) (t : Fin cfg0.N) : (pdat m 0 c).after 4 t = blk m c 4 t := by dsimp only [pdat]
theorem left_5 (c : Dev nD) (t : Fin cfg0.N) : (pdat m 0 c).after 5 t = blk m c 5 t := by dsimp only [pdat]
theorem left_6 (c : Dev nD) (t : Fin cfg0.N) : (pdat m 0 c).after 6 t = blk m c 6 t := by dsimp only [pdat]
theorem left_7 (c : Dev nD) (t : Fin cfg0.N) : (pdat m 0 c).after 7 t = blk m c 7 t := by dsimp only [pdat]
theorem left_8 (c : Dev nD) (t : Fin cfg0.N) : (pdat m 0 c).after 8 t = hBlock (blk m c 0 t) (blk m c 1 t) (blk m c 2 t) (blk m c 3 t) (blk m c 4 t) (blk m c 5 t) (blk m c 6 t) (blk m c 7 t) := by dsimp only [pdat]
theorem left_9 (c : Dev nD) (t : Fin cfg0.N) : (pdat m 0 c).after 9 t = cBlock (blk m c 0 t) (blk m c 1 t) (blk m c 2 t) (blk m c 3 t) (blk m c 4 t) (blk m c 5 t) (blk m c 6 t) (blk m c 7 t) := by dsimp only [pdat]

/-- An input's current staging buffer holds its block at every point, fetched there or not: the body leaves it in
    place, and where the pipeline does not fetch (Z and the block matrix after the first point) the block index has not moved. -/
theorem found_0 (c : Dev nD) (t : Fin cfg0.N) (d) : (pdat m 0 c).before 0 t d = blk m c 0 t :=
  ((pdat m 0 c).before_in_eq_fetched 0 rfl (fun _ => rfl) (fun _ _ _ => rfl) (fun t => by rw [left_0]; unfold Dat.blockOf blk; rw [pdat_A]; try rfl) t d).trans
    (by unfold Dat.fetched Dat.blockOf blk; rw [pdat_A]; try rfl)
theorem found_1 (c : Dev nD) (t : Fin cfg0.N) (d) : (pdat m 0 c).before 1 t d = blk m c 1 t :=
  ((pdat m 0 c).before_in_eq_fetched 1 rfl (fun _ => rfl) (fun _ _ _ => rfl) (fun t => by rw [left_1]; unfold Dat.blockOf blk; rw [pdat_A]; try rfl) t d).trans
    (by unfold Dat.fetched Dat.blockOf blk; rw [pdat_A]; try rfl)
theorem found_2 (c : Dev nD) (t : Fin cfg0.N) (d) : (pdat m 0 c).before 2 t d = blk m c 2 t :=
  ((pdat m 0 c).before_in_eq_fetched 2 rfl (fun _ => rfl) (fun _ _ _ => rfl) (fun t => by rw [left_2]; unfold Dat.blockOf blk; rw [pdat_A]; try rfl) t d).trans
    (by unfold Dat.fetched Dat.blockOf blk; rw [pdat_A]; try rfl)
theorem found_3 (c : Dev nD) (t : Fin cfg0.N) (d) : (pdat m 0 c).before 3 t d = blk m c 3 t :=
  ((pdat m 0 c).before_in_eq_fetched 3 rfl (fun _ => rfl) (fun _ _ _ => rfl) (fun t => by rw [left_3]; unfold Dat.blockOf blk; rw [pdat_A]; try rfl) t d).trans
    (by unfold Dat.fetched Dat.blockOf blk; rw [pdat_A]; try rfl)
theorem found_4 (c : Dev nD) (t : Fin cfg0.N) (d) : (pdat m 0 c).before 4 t d = blk m c 4 t :=
  ((pdat m 0 c).before_in_eq_fetched 4 rfl (fun _ => rfl) (fun _ _ _ => rfl) (fun t => by rw [left_4]; unfold Dat.blockOf blk; rw [pdat_A]; try rfl) t d).trans
    (by unfold Dat.fetched Dat.blockOf blk; rw [pdat_A]; try rfl)
theorem found_5 (c : Dev nD) (t : Fin cfg0.N) (d) : (pdat m 0 c).before 5 t d = blk m c 5 t :=
  ((pdat m 0 c).before_in_eq_fetched 5 rfl (fun _ => rfl) (fun _ _ _ => rfl) (fun t => by rw [left_5]; unfold Dat.blockOf blk; rw [pdat_A]; try rfl) t d).trans
    (by unfold Dat.fetched Dat.blockOf blk; rw [pdat_A]; try rfl)
theorem found_6 (c : Dev nD) (t : Fin cfg0.N) (d) : (pdat m 0 c).before 6 t d = blk m c 6 t :=
  ((pdat m 0 c).before_in_eq_fetched 6 rfl (fun _ => rfl) (fun _ _ _ => rfl) (fun t => by rw [left_6]; unfold Dat.blockOf blk; rw [pdat_A]; try rfl) t d).trans
    (by unfold Dat.fetched Dat.blockOf blk; rw [pdat_A]; try rfl)
theorem found_7 (c : Dev nD) (t : Fin cfg0.N) (d) : (pdat m 0 c).before 7 t d = blk m c 7 t :=
  ((pdat m 0 c).before_in_eq_fetched 7 rfl (fun _ => rfl) (fun _ _ _ => rfl) (fun t => by rw [left_7]; unfold Dat.blockOf blk; rw [pdat_A]; try rfl) t d).trans
    (by unfold Dat.fetched Dat.blockOf blk; rw [pdat_A]; try rfl)

/-! ## The body obligation -/

def handed (c : Dev nD) (t : Fin cfg0.N) : sProp 𝕄 :=
  iprop((pdat m 0 c).Φ t.castSucc ∗ (pdat m 0 c).owesAt () t.castSucc
    ∗ (∃ d, owns (c : Thread nD τ) (st0_0 t) fullShare ((pdat m 0 c).before 0 t d))
    ∗ (∃ d, owns (c : Thread nD τ) (st0_1 t) fullShare ((pdat m 0 c).before 1 t d))
    ∗ (∃ d, owns (c : Thread nD τ) (st0_2 t) fullShare ((pdat m 0 c).before 2 t d))
    ∗ (∃ d, owns (c : Thread nD τ) (st0_3 t) fullShare ((pdat m 0 c).before 3 t d))
    ∗ (∃ d, owns (c : Thread nD τ) (st0_4 t) fullShare ((pdat m 0 c).before 4 t d))
    ∗ (∃ d, owns (c : Thread nD τ) (st0_5 t) fullShare ((pdat m 0 c).before 5 t d))
    ∗ (∃ d, owns (c : Thread nD τ) (st0_6 t) fullShare ((pdat m 0 c).before 6 t d))
    ∗ (∃ d, owns (c : Thread nD τ) (st0_7 t) fullShare ((pdat m 0 c).before 7 t d))
    ∗ (∃ d, owns (c : Thread nD τ) (st0_8 t) fullShare ((pdat m 0 c).before 8 t d))
    ∗ (∃ d, owns (c : Thread nD τ) (st0_9 t) fullShare ((pdat m 0 c).before 9 t d)))

def returned (c : Dev nD) (t : Fin cfg0.N) : sProp 𝕄 :=
  iprop((pdat m 0 c).Φ t.succ ∗ (pdat m 0 c).owesAt () t.succ
    ∗ owns (c : Thread nD τ) (st0_0 t) fullShare ((pdat m 0 c).after 0 t)
    ∗ owns (c : Thread nD τ) (st0_1 t) fullShare ((pdat m 0 c).after 1 t)
    ∗ owns (c : Thread nD τ) (st0_2 t) fullShare ((pdat m 0 c).after 2 t)
    ∗ owns (c : Thread nD τ) (st0_3 t) fullShare ((pdat m 0 c).after 3 t)
    ∗ owns (c : Thread nD τ) (st0_4 t) fullShare ((pdat m 0 c).after 4 t)
    ∗ owns (c : Thread nD τ) (st0_5 t) fullShare ((pdat m 0 c).after 5 t)
    ∗ owns (c : Thread nD τ) (st0_6 t) fullShare ((pdat m 0 c).after 6 t)
    ∗ owns (c : Thread nD τ) (st0_7 t) fullShare ((pdat m 0 c).after 7 t)
    ∗ owns (c : Thread nD τ) (st0_8 t) fullShare ((pdat m 0 c).after 8 t)
    ∗ owns (c : Thread nD τ) (st0_9 t) fullShare ((pdat m 0 c).after 9 t))

/-- The body at any point: the inputs' buffers hold their blocks, so the triple applies; the invariant and the
    core's debt pass through unread. -/
theorem body_at (c : Dev nD) (t : Fin cfg0.N) :
    handed m c t ⊢ wp frame (wpE (defs₀ (F := F)) Variants.none c none) Set.univ (bodyAt0 t) (fun _ => returned m c t) := by
  unfold handed returned bodyAt0
  simp only [found_0, found_1, found_2, found_3, found_4, found_5, found_6, found_7]
  rw [show (pdat m 0 c).Φ t.succ = (pdat m 0 c).Φ t.castSucc from rfl,
    show (pdat m 0 c).owesAt () t.succ = (pdat m 0 c).owesAt () t.castSucc from rfl,
    left_0, left_1, left_2, left_3, left_4, left_5, left_6, left_7, left_8, left_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (cell_triple c Set.univ (grid0.coords t) _ _ _ _ _ _ _ _ _ _ _ _ _ _ _ _ _ _ _ _
    (blk m c 0 t) (blk m c 1 t) (blk m c 2 t) (blk m c 3 t) (blk m c 4 t) (blk m c 5 t) (blk m c 6 t) (blk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_everywhere (c : Dev nD) : BodyObligation (pdat (F := F) m 0 c) (defs₀ (F := F)) Variants.none () Set.univ := fun t => by
  rw [bigSep_W0, bigSep_W0]
  exact body_at m c t

/-! ## The run -/

set_option backward.isDefEq.respectTransparency.types false in
/-- Every weakly fair execution of @main terminates; every array a window stages ends at what the write-backs assemble
    from the proof data, every other buffer as the region found it. -/
theorem run_main : θ_run defs (onTc (τ := τ) (main (F := F))) (s₀ m ρ) (Pipeline.FramePost cfgs (pdat m) 0 (entry m)) :=
  Pipeline.θ_run_frame cfgs (pdat m) (0 : Fin 1) launch0 defs₀ Variants.none m ρ main
    (hbody := fun c => (body_everywhere m c).loose) (hshare := fun c => (pdat m 0 c).share_full fun _ => rfl)
    (howed := fun _ _ => rfl) (V := entry m) (hmain := entry_main m Variants.none) (hA := pdat_A m) (hΦ := fun _ _ => rfl)

/-- The same run with both results named and every argument array as launched. -/
theorem run_named : θ_run defs (onTc (τ := τ) (main (F := F))) ⟨m, fun _ => 0, ρ⟩ (fun r => ∀ c : Dev nD,
      r.2.mem ((c.tc : Thread nD τ).loc main_v6_0) = (pdat m 0 c).arrAt 8 cfg0.N
      ∧ r.2.mem ((c.tc : Thread nD τ).loc main_v6_1) = (pdat m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨(h c).1 8, (h c).1 9,
      ((h c).2 main_arg0 (Pipeline.mem_restRefs_of main_arg0 (by decide) (by decide))).trans (entry_arg0 m c),
      ((h c).1 0).trans (((pdat m 0 c).arrAt_in 0 rfl _).trans ((pdat_A m c 0).trans (entry_arg1 m c))),
      ((h c).2 main_arg2 (Pipeline.mem_restRefs_of main_arg2 (by decide) (by decide))).trans (entry_arg2 m c),
      ((h c).1 3).trans (((pdat m 0 c).arrAt_in 3 rfl _).trans ((pdat_A m c 3).trans (entry_arg3 m c))),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c),
      ((h c).2 main_arg12 (Pipeline.mem_restRefs_of main_arg12 (by decide) (by decide))).trans (entry_arg12 m c),
      ((h c).2 main_arg13 (Pipeline.mem_restRefs_of main_arg13 (by decide) (by decide))).trans (entry_arg13 m c),
      ((h c).2 main_arg14 (Pipeline.mem_restRefs_of main_arg14 (by decide) (by decide))).trans (entry_arg14 m c),
      ((h c).1 4).trans (((pdat m 0 c).arrAt_in 4 rfl _).trans ((pdat_A m c 4).trans (entry_arg15 m c))),
      ((h c).1 5).trans (((pdat m 0 c).arrAt_in 5 rfl _).trans ((pdat_A m c 5).trans (entry_arg16 m c))),
      ((h c).1 6).trans (((pdat m 0 c).arrAt_in 6 rfl _).trans ((pdat_A m c 6).trans (entry_arg17 m c))),
      ((h c).1 7).trans (((pdat m 0 c).arrAt_in 7 rfl _).trans ((pdat_A m c 7).trans (entry_arg18 m c)))⟩) (run_main m ρ)

/-- The frame: @main terminates, faults nowhere, and leaves its nineteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => (h c).2.2) (run_named m ρ)

end Cert.Kernel.CellFrame

end
-- ==== Proof.CellSpec.lean ====
/-
  The graph-convolution LSTM cell, entry by entry, on the extended reals.

  A graph convolution `A (Z W)` read at (r, j) is `∑ n, A r n · ∑ k, Z n k · W k j` (`gconv`, of row r of A and
  column j of W).  A gate's pre-activation adds the convolutions of X, of h and (but for the candidate gate) of c,
  and a bias; the cell is
      c_new = σ (σ f · c + σ i · tanh (tanh g)),      h_new = tanh c_new · σ o,
  with σ x = 1 / (1 + e^(-x)).

  The other arrangement puts the features side by side, Z = [X | h | c], stacks each gate's three weight columns into
  one column W of height 512, and multiplies A in first: `∑ k, (∑ n, A r n · Z n k) · W k` (`fused`).  Over the
  reals the two are equal: the inner sums exchange (the terms are products `A r n · Z n k · W k`), and the sum over the
  512 stacked positions splits into its three stretches.  On the extended reals the exchange needs every entry to be a
  real number (a product with an infinity does not distribute over a sum of opposite signs), which is what `IsReal`
  records.
-/
import Idealize.ShloMosaic.PureOps.Ideal
import Idealize.ShloMosaic.Lib.ValueIdx

noncomputable section

namespace Cert.CellSpec

open Idealize.ShloMosaic Idealize.ShloMosaic.ValueIdx

/-- An extended real that is a real number. -/
def IsReal (x : EReal) : Prop := ∃ r : ℝ, x = (r : EReal)

/-- Entry of a graph convolution: a row `A` of the adjacency, the features `Z`, a column `W` of the weights. -/
def gconv {N K : ℕ} (A : Fin N → EReal) (Z : Fin N → Fin K → EReal) (W : Fin K → EReal) : EReal :=
  ∑ n : Fin N, A n * ∑ k : Fin K, Z n k * W k

/-- The same three factors with the adjacency multiplied in first. -/
def fused {N K : ℕ} (A : Fin N → EReal) (Z : Fin N → Fin K → EReal) (W : Fin K → EReal) : EReal :=
  ∑ k : Fin K, (∑ n : Fin N, A n * Z n k) * W k

/-- The new cell state from the pre-activations of the input, forget and candidate gates and the old state. -/
def cellC (pi pf pg cv : EReal) : EReal :=
  Ideal.logistic (Ideal.logistic pf * cv + Ideal.logistic pi * Ideal.tanh (Ideal.tanh pg))

/-- The new hidden state: the output gate applied to the squashed new cell state. -/
def cellH (pi pf po pg cv : EReal) : EReal :=
  Ideal.tanh (cellC pi pf pg cv) * Ideal.logistic po

/-- A rank-two array of extended reals. -/
abbrev Mat (a b : ℕ) : Type := (⟨2, ![a, b]⟩ : Shape).Idx → EReal

/-- Row `r`, column `j`, and the entries of a rank-two array. -/
def rowOf {a b : ℕ} (M : Mat a b) (r : Fin a) : Fin b → EReal := fun n => M (ix2 r n)
def colOf {a b : ℕ} (M : Mat a b) (j : Fin b) : Fin a → EReal := fun k => M (ix2 k j)
def ent {a b : ℕ} (M : Mat a b) : Fin a → Fin b → EReal := fun n k => M (ix2 n k)

/-- A gate's pre-activation at (r, j) with all three convolutions: `A (X Wu) + A (h Ww) + A (c Wv) + bias`. -/
def pre3 (A : Mat 4096 4096) (X : Mat 4096 256) (H C : Mat 4096 128) (Wu : Mat 256 128) (Ww Wv : Mat 128 128)
    (b : Mat 4096 128) (r : Fin 4096) (j : Fin 128) : EReal :=
  gconv (rowOf A r) (ent X) (colOf Wu j) + gconv (rowOf A r) (ent H) (colOf Ww j) + gconv (rowOf A r) (ent C) (colOf Wv j)
    + b (ix2 r j)

/-- The candidate gate's, which has no convolution of c. -/
def pre2 (A : Mat 4096 4096) (X : Mat 4096 256) (H : Mat 4096 128) (Wu : Mat 256 128) (Ww : Mat 128 128)
    (b : Mat 4096 128) (r : Fin 4096) (j : Fin 128) : EReal :=
  gconv (rowOf A r) (ent X) (colOf Wu j) + gconv (rowOf A r) (ent H) (colOf Ww j) + b (ix2 r j)

/-- The coercion of the reals into the extended reals goes through a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- With real entries the two arrangements agree, whatever the width: both are the sum of the products
    `A n · Z n k · W k` over all pairs (n, k). -/
theorem fused_eq_gconv {N K : ℕ} (A : Fin N → EReal) (Z : Fin N → Fin K → EReal) (W : Fin K → EReal)
    (hA : ∀ n, IsReal (A n)) (hZ : ∀ n k, IsReal (Z n k)) (hW : ∀ k, IsReal (W k)) :
    fused A Z W = gconv A Z W := by
  choose a ha using hA
  choose z hz using hZ
  choose w hw using hW
  have key : (∑ k : Fin K, (∑ n : Fin N, a n * z n k) * w k) = ∑ n : Fin N, a n * ∑ k : Fin K, z n k * w k := by
    simp only [Finset.sum_mul, Finset.mul_sum]
    rw [Finset.sum_comm]
    refine Finset.sum_congr rfl (fun n _ => Finset.sum_congr rfl (fun k _ => ?_))
    ring
  unfold fused gconv
  simp only [ha, hz, hw, ← EReal.coe_mul, ← coe_sum]
  rw [key]

/-- A sum over the 512 stacked positions is the sum over its three stretches. -/
theorem sum_split (f : Fin 512 → EReal) :
    ∑ k : Fin 512, f k
      = ∑ k : Fin 256, f ⟨k.val, Nat.lt_of_lt_of_le k.isLt (by decide)⟩
        + ∑ k : Fin 128, f ⟨256 + k.val, by have := k.isLt; omega⟩
        + ∑ k : Fin 128, f ⟨384 + k.val, by have := k.isLt; omega⟩ := by
  have h : ∑ k : Fin (256 + (128 + 128)), f k
      = ∑ k : Fin 256, f (Fin.castAdd (128 + 128) k)
        + (∑ k : Fin 128, f (Fin.natAdd 256 (Fin.castAdd 128 k))
          + ∑ k : Fin 128, f (Fin.natAdd 256 (Fin.natAdd 128 k))) := by
    rw [Fin.sum_univ_add, Fin.sum_univ_add]
  rw [add_assoc]
  refine h.trans ?_
  rfl

/-- With every entry a real number, multiplying the adjacency in first and stacking the three feature blocks and the
    three weight stretches changes nothing: the fused sum is the sum of the three convolutions. -/
theorem fuse {N : ℕ} (A : Fin N → EReal) (Z : Fin N → Fin 512 → EReal) (W : Fin 512 → EReal)
    (X : Fin N → Fin 256 → EReal) (H C : Fin N → Fin 128 → EReal) (Wu : Fin 256 → EReal) (Ww Wv : Fin 128 → EReal)
    (hA : ∀ n, IsReal (A n)) (hX : ∀ n k, IsReal (X n k)) (hH : ∀ n k, IsReal (H n k)) (hC : ∀ n k, IsReal (C n k))
    (hWu : ∀ k, IsReal (Wu k)) (hWw : ∀ k, IsReal (Ww k)) (hWv : ∀ k, IsReal (Wv k))
    (zX : ∀ n (k : Fin 256), Z n ⟨k.val, Nat.lt_of_lt_of_le k.isLt (by decide)⟩ = X n k)
    (zH : ∀ n (k : Fin 128), Z n ⟨256 + k.val, by have := k.isLt; omega⟩ = H n k)
    (zC : ∀ n (k : Fin 128), Z n ⟨384 + k.val, by have := k.isLt; omega⟩ = C n k)
    (wU : ∀ k : Fin 256, W ⟨k.val, Nat.lt_of_lt_of_le k.isLt (by decide)⟩ = Wu k)
    (wW : ∀ k : Fin 128, W ⟨256 + k.val, by have := k.isLt; omega⟩ = Ww k)
    (wV : ∀ k : Fin 128, W ⟨384 + k.val, by have := k.isLt; omega⟩ = Wv k) :
    fused A Z W = gconv A X Wu + gconv A H Ww + gconv A C Wv := by
  unfold fused
  rw [sum_split]
  simp only [zX, zH, zC, wU, wW, wV]
  rw [← fused_eq_gconv A X Wu hA hX hWu, ← fused_eq_gconv A H Ww hA hH hWw, ← fused_eq_gconv A C Wv hA hC hWv]
  rfl

/-- The same when the last weight stretch is zero: the third convolution drops out. -/
theorem fuse_noC {N : ℕ} (A : Fin N → EReal) (Z : Fin N → Fin 512 → EReal) (W : Fin 512 → EReal)
    (X : Fin N → Fin 256 → EReal) (H C : Fin N → Fin 128 → EReal) (Wu : Fin 256 → EReal) (Ww : Fin 128 → EReal)
    (hA : ∀ n, IsReal (A n)) (hX : ∀ n k, IsReal (X n k)) (hH : ∀ n k, IsReal (H n k)) (hC : ∀ n k, IsReal (C n k))
    (hWu : ∀ k, IsReal (Wu k)) (hWw : ∀ k, IsReal (Ww k))
    (zX : ∀ n (k : Fin 256), Z n ⟨k.val, Nat.lt_of_lt_of_le k.isLt (by decide)⟩ = X n k)
    (zH : ∀ n (k : Fin 128), Z n ⟨256 + k.val, by have := k.isLt; omega⟩ = H n k)
    (zC : ∀ n (k : Fin 128), Z n ⟨384 + k.val, by have := k.isLt; omega⟩ = C n k)
    (wU : ∀ k : Fin 256, W ⟨k.val, Nat.lt_of_lt_of_le k.isLt (by decide)⟩ = Wu k)
    (wW : ∀ k : Fin 128, W ⟨256 + k.val, by have := k.isLt; omega⟩ = Ww k)
    (wV : ∀ k : Fin 128, W ⟨384 + k.val, by have := k.isLt; omega⟩ = 0) :
    fused A Z W = gconv A X Wu + gconv A H Ww := by
  have h := fuse A Z W X H C Wu Ww (fun _ => 0) hA hX hH hC hWu hWw (fun _ => ⟨0, by simp⟩) zX zH zC wU wW wV
  rw [h]
  have z : gconv A C (fun _ => (0 : EReal)) = 0 := by
    unfold gconv
    simp
  rw [z, add_zero]

end Cert.CellSpec

end
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.CellPayload.lean ====
/-
  What the body's two stores hold, entry by entry.

  The body multiplies its 512 rows of A into Z (4096 x 512) and the product into the 512 x 512 block matrix; entry
  (p, col) of the result is `∑ k, (∑ n, A p n · Z n k) · W k col`: the fused sum of row p of the block of A, the
  features Z and column `col` of the block matrix.  The four gates read the column blocks 0, 128, 256 and 384 of that
  product, each adds its bias block, and the cell's formula is applied entry by entry; so at (p, j) the stored c_new
  is `cellC` and the stored h_new `cellH` of the fused sums at the columns j, 128 + j, 256 + j and 384 + j plus the
  biases, and of the old cell state at (p, j).
-/
import proofs.«163595_g21629455302669_cont_8to1_1577_2_alg».proof.Proof.Gen.KernelIdeal.Skeleton
import proofs.«163595_g21629455302669_cont_8to1_1577_2_alg».proof.Proof.CellSpec
import proofs.«163595_g21629455302669_cont_8to1_1577_2_alg».proof.Proof.LibDense
import Idealize.ShloMosaic.Lib.ValueLayout
import Idealize.ShloMosaic.Lib.Pipeline.Value
import Idealize.ShloMosaic.Lib.Pipeline.FrameBody

set_option maxRecDepth 16384

noncomputable section

namespace Cert.CellPayload

open Idealize.ShloMosaic Idealize.ShloMosaic.ValueIdx Cert.KernelIdeal Cert.KernelIdeal.Gen Cert.CellSpec

/-- Column `j` of gate block `g` (the blocks are 128 wide, in the order i, f, o, g). -/
def gcol (g : Fin 4) (j : Fin 128) : Fin 512 := ⟨128 * g.val + j.val, by have := g.isLt; have := j.isLt; omega⟩

/-- Both products contract the left operand's columns with the right operand's rows. -/
theorem dotAZ_plain : dot_S512x4096_S4096x512_S512x512_1_0_0_1_n_n = DotDims.plain 512 4096 512 := rfl
theorem dotGW_plain : dot_S512x512_S512x512_S512x512_1_0_0_1_n_n = DotDims.plain 512 512 512 := rfl

/-- The doubly multiplied block at (p, col): the fused sum. -/
theorem pay1_apply (a : Vec Ideal S512x4096 .f32) (z : Vec Ideal S4096x512 .f32) (w : Vec Ideal S512x512 .f32)
    (p : Fin 512) (col : Fin 512) :
    k0_pay1 a z w (ix2 p col) = fused (rowOf a p) (ent z) (colOf w col) := by
  unfold k0_pay1
  rw [shapeCast_self, shapeCast_self, dotAZ_plain, dotGW_plain]
  refine (Cert.LibDense.matmul_plain_zero_apply (φ₁ := .f32) (φ₂ := .f32) none _ w p col).trans ?_
  unfold fused rowOf ent colOf
  refine Finset.sum_congr rfl fun k _ => ?_
  congr 1
  exact Cert.LibDense.matmul_plain_zero_apply (φ₁ := .f32) (φ₂ := .f32) none a z p k

/-- The stored c_new at (p, j). -/
theorem pay2_apply (a : Vec Ideal S512x4096 .f32) (z : Vec Ideal S4096x512 .f32) (w : Vec Ideal S512x512 .f32)
    (bi bf bg cc : Vec Ideal S512x128 .f32) (p : Fin 512) (j : Fin 128) :
    k0_pay2 a z w bi bf bg cc (ix2 p j)
      = cellC (fused (rowOf a p) (ent z) (colOf w (gcol 0 j)) + bi (ix2 p j))
          (fused (rowOf a p) (ent z) (colOf w (gcol 1 j)) + bf (ix2 p j))
          (fused (rowOf a p) (ent z) (colOf w (gcol 3 j)) + bg (ix2 p j)) (cc (ix2 p j)) := by
  unfold k0_pay2
  show Ideal.logistic (Ideal.logistic (extractStridedSlice S512x128 ![0, 128] (k0_pay1 a z w) slices_S512x512_o0_128_S512x128 (ix2 p j) + bf (ix2 p j)) * cc (ix2 p j)
      + Ideal.logistic (extractStridedSlice S512x128 ![0, 0] (k0_pay1 a z w) slices_S512x512_o0_0_S512x128 (ix2 p j) + bi (ix2 p j))
        * Ideal.tanh (Ideal.tanh (extractStridedSlice S512x128 ![0, 384] (k0_pay1 a z w) slices_S512x512_o0_384_S512x128 (ix2 p j) + bg (ix2 p j)))) = _
  rw [slice2_axis1_apply 128 (k0_pay1 a z w) slices_S512x512_o0_128_S512x128 p j (gcol 1 j) rfl,
    slice2_axis1_apply 0 (k0_pay1 a z w) slices_S512x512_o0_0_S512x128 p j (gcol 0 j) (by show 128 * 0 + j.val = 0 + j.val; omega),
    slice2_axis1_apply 384 (k0_pay1 a z w) slices_S512x512_o0_384_S512x128 p j (gcol 3 j) rfl,
    pay1_apply, pay1_apply, pay1_apply]
  rfl

/-- The stored h_new at (p, j). -/
theorem pay3_apply (a : Vec Ideal S512x4096 .f32) (z : Vec Ideal S4096x512 .f32) (w : Vec Ideal S512x512 .f32)
    (bi bf bo bg cc : Vec Ideal S512x128 .f32) (p : Fin 512) (j : Fin 128) :
    k0_pay3 a z w bi bf bo bg cc (ix2 p j)
      = cellH (fused (rowOf a p) (ent z) (colOf w (gcol 0 j)) + bi (ix2 p j))
          (fused (rowOf a p) (ent z) (colOf w (gcol 1 j)) + bf (ix2 p j))
          (fused (rowOf a p) (ent z) (colOf w (gcol 2 j)) + bo (ix2 p j))
          (fused (rowOf a p) (ent z) (colOf w (gcol 3 j)) + bg (ix2 p j)) (cc (ix2 p j)) := by
  unfold k0_pay3
  show Ideal.tanh (k0_pay2 a z w bi bf bg cc (ix2 p j))
      * Ideal.logistic (extractStridedSlice S512x128 ![0, 256] (k0_pay1 a z w) slices_S512x512_o0_256_S512x128 (ix2 p j) + bo (ix2 p j)) = _
  rw [pay2_apply, slice2_axis1_apply 256 (k0_pay1 a z w) slices_S512x512_o0_256_S512x128 p j (gcol 2 j) rfl, pay1_apply]
  rfl

end Cert.CellPayload

end
-- ==== Proof.CellEntry.lean ====
/-
  The two arrays the host builds before the region, read at an entry.

  Z = [X | h | c] lays the three feature arrays side by side: columns 0 … 255 are X's, 256 … 383 are h's, 384 … 511 are
  c's.  The block matrix stacks three strips (rows 0 … 255 the weights applied to X, 256 … 383 those applied to h,
  384 … 511 those applied to c), each strip laying the gates i, f, o, g side by side in blocks of 128 columns; the
  c-strip's candidate block is the zero matrix.
-/
import proofs.«163595_g21629455302669_cont_8to1_1577_2_alg».proof.Proof.CellFrame
import proofs.«163595_g21629455302669_cont_8to1_1577_2_alg».proof.Proof.CellPayload
import Idealize.ShloMosaic.Lib.StableHlo.Run
import Idealize.ShloMosaic.Lib.Pipeline.Value
import Idealize.ShloMosaic.Lib.ValueIdx

set_option maxRecDepth 16384

noncomputable section

namespace Cert.CellEntry

open Idealize.ShloMosaic Idealize.ShloMosaic.ValueIdx Idealize.ShloMosaic.TcCoe Idealize.SL.Sem Idealize.ShloMosaic.StableHlo
open Cert.KernelIdeal Cert.KernelIdeal.Gen Cert.KernelIdeal.CellFrame Cert.CellSpec Cert.CellPayload

variable (m : (ℓ : Loc nD τ sig) → Buf (Elt Ideal) ℓ)

/-! ## The host operations' results -/

/-- Z as the region finds it. -/
theorem entry_Z (c : Dev nD) :
    (entry m c main_v0 : S4096x512.Idx → EReal)
      = concatenate S4096x512 1 [⟨S4096x256, m ((c : Thread nD τ).loc main_arg0)⟩, ⟨S4096x128, m ((c : Thread nD τ).loc main_arg2)⟩,
          ⟨S4096x128, m ((c : Thread nD τ).loc main_arg3)⟩] concatenates_S4096x256_S4096x128_S4096x128_S4096x512_d1 := by
  dsimp only [entry]
  simp only [hostOps0, List.flatten_cons, List.flatten_nil, List.append_nil]
  after_results
  rfl

/-- A three-operand concatenation's result, each operand's contents at its own reference (so that the operands'
    own results can be rewritten in turn). -/
theorem nary3_result {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Rewrites the host operations' results one by one, outermost first. -/
local macro "host_results" : tactic =>
  `(tactic| (simp only [after_cons, after_nil]
             repeat (first
               | rw [nullary_result] | rw [unary_result] | rw [nary4_result] | rw [nary3_result]
               | (rw [nullary_result_ne]; rotate_left; decide)
               | (rw [unary_result_ne]; rotate_left; decide)
               | (rw [nary_result_ne]; rotate_left; decide))))

set_option maxHeartbeats 4000000 in
/-- The block matrix: the three strips stacked, each strip its four gate blocks side by side. -/
theorem entry_W (c : Dev nD) :
    (entry m c main_v5 : S512x512.Idx → EReal)
      = concatenate S512x512 0
          [⟨S256x512, concatenate S256x512 1 [⟨S256x128, m ((c : Thread nD τ).loc main_arg4)⟩, ⟨S256x128, m ((c : Thread nD τ).loc main_arg7)⟩,
              ⟨S256x128, m ((c : Thread nD τ).loc main_arg12)⟩, ⟨S256x128, m ((c : Thread nD τ).loc main_arg10)⟩]
              concatenates_S256x128_S256x128_S256x128_S256x128_S256x512_d1⟩,
           ⟨S128x512, concatenate S128x512 1 [⟨S128x128, m ((c : Thread nD τ).loc main_arg5)⟩, ⟨S128x128, m ((c : Thread nD τ).loc main_arg8)⟩,
              ⟨S128x128, m ((c : Thread nD τ).loc main_arg13)⟩, ⟨S128x128, m ((c : Thread nD τ).loc main_arg11)⟩]
              concatenates_S128x128_S128x128_S128x128_S128x128_S128x512_d1⟩,
           ⟨S128x512, concatenate S128x512 1 [⟨S128x128, m ((c : Thread nD τ).loc main_arg6)⟩, ⟨S128x128, m ((c : Thread nD τ).loc main_arg9)⟩,
              ⟨S128x128, m ((c : Thread nD τ).loc main_arg14)⟩,
              ⟨S128x128, broadcastInDim S128x128 ![] bcast_S_S128x128 (constant (F := Ideal) S_ .f32 0x00000000#32)⟩]
              concatenates_S128x128_S128x128_S128x128_S128x128_S128x512_d1⟩]
          concatenates_S256x512_S128x512_S128x512_S512x512_d0 := by
  dsimp only [entry]
  simp only [hostOps0, List.flatten_cons, List.flatten_nil, List.append_nil]
  host_results
  rfl

/-! ## Concatenations read at an entry -/

section Reading
variable {α : Type}

/-- Three pieces side by side, of 256, 128 and 128 columns. -/
theorem cols3 {R : ℕ} (x0 : (⟨2, ![R, 256]⟩ : Shape).Idx → α) (x1 x2 : (⟨2, ![R, 128]⟩ : Shape).Idx → α)
    (h : Shape.Concatenates [⟨2, ![R, 256]⟩, ⟨2, ![R, 128]⟩, ⟨2, ![R, 128]⟩] ⟨2, ![R, 512]⟩ 1) (r : Fin R) :
    (∀ k : Fin 256, concatenate ⟨2, ![R, 512]⟩ 1 [⟨⟨2, ![R, 256]⟩, x0⟩, ⟨⟨2, ![R, 128]⟩, x1⟩, ⟨⟨2, ![R, 128]⟩, x2⟩] h
        (ix2 r ⟨k.val, Nat.lt_of_lt_of_le k.isLt (by decide)⟩) = x0 (ix2 r k))
    ∧ (∀ k : Fin 128, concatenate ⟨2, ![R, 512]⟩ 1 [⟨⟨2, ![R, 256]⟩, x0⟩, ⟨⟨2, ![R, 128]⟩, x1⟩, ⟨⟨2, ![R, 128]⟩, x2⟩] h
        (ix2 r ⟨256 + k.val, by have := k.isLt; omega⟩) = x1 (ix2 r k))
    ∧ (∀ k : Fin 128, concatenate ⟨2, ![R, 512]⟩ 1 [⟨⟨2, ![R, 256]⟩, x0⟩, ⟨⟨2, ![R, 128]⟩, x1⟩, ⟨⟨2, ![R, 128]⟩, x2⟩] h
        (ix2 r ⟨384 + k.val, by have := k.isLt; omega⟩) = x2 (ix2 r k)) := by
  refine ⟨fun k => ?_, fun k => ?_, fun k => ?_⟩
  · exact concatenate_apply_piece (t := ⟨2, ![R, 512]⟩) 1 [⟨⟨2, ![R, 256]⟩, x0⟩, ⟨⟨2, ![R, 128]⟩, x1⟩, ⟨⟨2, ![R, 128]⟩, x2⟩] h _ 0 (by show (0 : ℕ) < 3; decide) _ x0 rfl rfl 0 rfl (ix2 r k)
      (fun b hb => by match b with | ⟨0, _⟩ => rfl | ⟨1, _⟩ => exact absurd rfl hb) (by show 0 + k.val = k.val; omega)
  · exact concatenate_apply_piece (t := ⟨2, ![R, 512]⟩) 1 [⟨⟨2, ![R, 256]⟩, x0⟩, ⟨⟨2, ![R, 128]⟩, x1⟩, ⟨⟨2, ![R, 128]⟩, x2⟩] h _ 1 (by show (1 : ℕ) < 3; decide) _ x1 rfl rfl 256 rfl (ix2 r k)
      (fun b hb => by match b with | ⟨0, _⟩ => rfl | ⟨1, _⟩ => exact absurd rfl hb) rfl
  · exact concatenate_apply_piece (t := ⟨2, ![R, 512]⟩) 1 [⟨⟨2, ![R, 256]⟩, x0⟩, ⟨⟨2, ![R, 128]⟩, x1⟩, ⟨⟨2, ![R, 128]⟩, x2⟩] h _ 2 (by show (2 : ℕ) < 3; decide) _ x2 rfl rfl 384 rfl (ix2 r k)
      (fun b hb => by match b with | ⟨0, _⟩ => rfl | ⟨1, _⟩ => exact absurd rfl hb) rfl

/-- Three pieces stacked, of 256, 128 and 128 rows. -/
theorem rows3 {C : ℕ} (x0 : (⟨2, ![256, C]⟩ : Shape).Idx → α) (x1 x2 : (⟨2, ![128, C]⟩ : Shape).Idx → α)
    (h : Shape.Concatenates [⟨2, ![256, C]⟩, ⟨2, ![128, C]⟩, ⟨2, ![128, C]⟩] ⟨2, ![512, C]⟩ 0) (col : Fin C) :
    (∀ k : Fin 256, concatenate ⟨2, ![512, C]⟩ 0 [⟨⟨2, ![256, C]⟩, x0⟩, ⟨⟨2, ![128, C]⟩, x1⟩, ⟨⟨2, ![128, C]⟩, x2⟩] h
        (ix2 ⟨k.val, Nat.lt_of_lt_of_le k.isLt (by decide)⟩ col) = x0 (ix2 k col))
    ∧ (∀ k : Fin 128, concatenate ⟨2, ![512, C]⟩ 0 [⟨⟨2, ![256, C]⟩, x0⟩, ⟨⟨2, ![128, C]⟩, x1⟩, ⟨⟨2, ![128, C]⟩, x2⟩] h
        (ix2 ⟨256 + k.val, by have := k.isLt; omega⟩ col) = x1 (ix2 k col))
    ∧ (∀ k : Fin 128, concatenate ⟨2, ![512, C]⟩ 0 [⟨⟨2, ![256, C]⟩, x0⟩, ⟨⟨2, ![128, C]⟩, x1⟩, ⟨⟨2, ![128, C]⟩, x2⟩] h
        (ix2 ⟨384 + k.val, by have := k.isLt; omega⟩ col) = x2 (ix2 k col)) := by
  refine ⟨fun k => ?_, fun k => ?_, fun k => ?_⟩
  · exact concatenate_apply_piece (t := ⟨2, ![512, C]⟩) 0 [⟨⟨2, ![256, C]⟩, x0⟩, ⟨⟨2, ![128, C]⟩, x1⟩, ⟨⟨2, ![128, C]⟩, x2⟩] h _ 0 (by show (0 : ℕ) < 3; decide) _ x0 rfl rfl 0 rfl (ix2 k col)
      (fun b hb => by match b with | ⟨0, _⟩ => exact absurd rfl hb | ⟨1, _⟩ => rfl) (by show 0 + k.val = k.val; omega)
  · exact concatenate_apply_piece (t := ⟨2, ![512, C]⟩) 0 [⟨⟨2, ![256, C]⟩, x0⟩, ⟨⟨2, ![128, C]⟩, x1⟩, ⟨⟨2, ![128, C]⟩, x2⟩] h _ 1 (by show (1 : ℕ) < 3; decide) _ x1 rfl rfl 256 rfl (ix2 k col)
      (fun b hb => by match b with | ⟨0, _⟩ => exact absurd rfl hb | ⟨1, _⟩ => rfl) rfl
  · exact concatenate_apply_piece (t := ⟨2, ![512, C]⟩) 0 [⟨⟨2, ![256, C]⟩, x0⟩, ⟨⟨2, ![128, C]⟩, x1⟩, ⟨⟨2, ![128, C]⟩, x2⟩] h _ 2 (by show (2 : ℕ) < 3; decide) _ x2 rfl rfl 384 rfl (ix2 k col)
      (fun b hb => by match b with | ⟨0, _⟩ => exact absurd rfl hb | ⟨1, _⟩ => rfl) rfl

/-- Four pieces of 128 columns side by side: column `j` of gate block `g` is column `j` of piece `g`. -/
theorem cols4 {R : ℕ} (x0 x1 x2 x3 : (⟨2, ![R, 128]⟩ : Shape).Idx → α)
    (h : Shape.Concatenates [⟨2, ![R, 128]⟩, ⟨2, ![R, 128]⟩, ⟨2, ![R, 128]⟩, ⟨2, ![R, 128]⟩] ⟨2, ![R, 512]⟩ 1) (r : Fin R) (j : Fin 128) :
    concatenate ⟨2, ![R, 512]⟩ 1 [⟨⟨2, ![R, 128]⟩, x0⟩, ⟨⟨2, ![R, 128]⟩, x1⟩, ⟨⟨2, ![R, 128]⟩, x2⟩, ⟨⟨2, ![R, 128]⟩, x3⟩] h (ix2 r (gcol 0 j)) = x0 (ix2 r j)
    ∧ concatenate ⟨2, ![R, 512]⟩ 1 [⟨⟨2, ![R, 128]⟩, x0⟩, ⟨⟨2, ![R, 128]⟩, x1⟩, ⟨⟨2, ![R, 128]⟩, x2⟩, ⟨⟨2, ![R, 128]⟩, x3⟩] h (ix2 r (gcol 1 j)) = x1 (ix2 r j)
    ∧ concatenate ⟨2, ![R, 512]⟩ 1 [⟨⟨2, ![R, 128]⟩, x0⟩, ⟨⟨2, ![R, 128]⟩, x1⟩, ⟨⟨2, ![R, 128]⟩, x2⟩, ⟨⟨2, ![R, 128]⟩, x3⟩] h (ix2 r (gcol 2 j)) = x2 (ix2 r j)
    ∧ concatenate ⟨2, ![R, 512]⟩ 1 [⟨⟨2, ![R, 128]⟩, x0⟩, ⟨⟨2, ![R, 128]⟩, x1⟩, ⟨⟨2, ![R, 128]⟩, x2⟩, ⟨⟨2, ![R, 128]⟩, x3⟩] h (ix2 r (gcol 3 j)) = x3 (ix2 r j) := by
  refine ⟨?_, ?_, ?_, ?_⟩
  · exact concatenate_apply_piece (t := ⟨2, ![R, 512]⟩) 1 [⟨⟨2, ![R, 128]⟩, x0⟩, ⟨⟨2, ![R, 128]⟩, x1⟩, ⟨⟨2, ![R, 128]⟩, x2⟩, ⟨⟨2, ![R, 128]⟩, x3⟩] h _ 0 (by show (0 : ℕ) < 4; decide) _ x0 rfl rfl 0 rfl (ix2 r j)
      (fun b hb => by match b with | ⟨0, _⟩ => rfl | ⟨1, _⟩ => exact absurd rfl hb) (by show 0 + j.val = 128 * 0 + j.val; omega)
  · exact concatenate_apply_piece (t := ⟨2, ![R, 512]⟩) 1 [⟨⟨2, ![R, 128]⟩, x0⟩, ⟨⟨2, ![R, 128]⟩, x1⟩, ⟨⟨2, ![R, 128]⟩, x2⟩, ⟨⟨2, ![R, 128]⟩, x3⟩] h _ 1 (by show (1 : ℕ) < 4; decide) _ x1 rfl rfl 128 rfl (ix2 r j)
      (fun b hb => by match b with | ⟨0, _⟩ => rfl | ⟨1, _⟩ => exact absurd rfl hb) rfl
  · exact concatenate_apply_piece (t := ⟨2, ![R, 512]⟩) 1 [⟨⟨2, ![R, 128]⟩, x0⟩, ⟨⟨2, ![R, 128]⟩, x1⟩, ⟨⟨2, ![R, 128]⟩, x2⟩, ⟨⟨2, ![R, 128]⟩, x3⟩] h _ 2 (by show (2 : ℕ) < 4; decide) _ x2 rfl rfl 256 rfl (ix2 r j)
      (fun b hb => by match b with | ⟨0, _⟩ => rfl | ⟨1, _⟩ => exact absurd rfl hb) rfl
  · exact concatenate_apply_piece (t := ⟨2, ![R, 512]⟩) 1 [⟨⟨2, ![R, 128]⟩, x0⟩, ⟨⟨2, ![R, 128]⟩, x1⟩, ⟨⟨2, ![R, 128]⟩, x2⟩, ⟨⟨2, ![R, 128]⟩, x3⟩] h _ 3 (by show (3 : ℕ) < 4; decide) _ x3 rfl rfl 384 rfl (ix2 r j)
      (fun b hb => by match b with | ⟨0, _⟩ => rfl | ⟨1, _⟩ => exact absurd rfl hb) rfl

end Reading

end Cert.CellEntry

end
-- ==== Proof.CellValue.lean ====
/-
  From the blocks to the arrays: what h_new and c_new hold after the run.

  Point t of the grid writes rows 512 t … 512 t + 511 of both results.  The block it writes is the cell's formula
  of row 512 t + p of A (the point's block of A holds those rows), of all of Z and of the block matrix, and of the
  entries (512 t + p, j) of the old cell state and the biases; the eight blocks tile the 4096 rows, so each result
  array ends as ONE function of the arrays the region found, entry by entry (`kerH`, `kerC`).
-/
import proofs.«163595_g21629455302669_cont_8to1_1577_2_alg».proof.Proof.CellFrame
import proofs.«163595_g21629455302669_cont_8to1_1577_2_alg».proof.Proof.CellPayload

set_option maxRecDepth 16384

noncomputable section

namespace Cert.CellValue

open Idealize.ShloMosaic Idealize.ShloMosaic.ValueIdx Idealize.ShloMosaic.TcCoe Idealize.SL.Sem
open Cert.KernelIdeal Cert.KernelIdeal.Gen Cert.KernelIdeal.CellFrame Cert.CellSpec Cert.CellPayload
open Idealize.ShloMosaic.Pipeline (Dat)

theorem zeros2 : (![0, 0] : Fin 2 → Nat) = fun _ => 0 := funext fun a => by fin_cases a <;> rfl

/-- The stored h_new block at (p, j), over the point's input blocks. -/
theorem hBlock_apply (a : Vec Ideal S512x4096 .f32) (z : Vec Ideal S4096x512 .f32) (w : Vec Ideal S512x512 .f32)
    (cc bi bf bg bo : Vec Ideal S512x128 .f32) (p : Fin 512) (j : Fin 128) :
    hBlock (F := Ideal) a z w cc bi bf bg bo (ix2 p j)
      = cellH (fused (rowOf a p) (ent z) (colOf w (gcol 0 j)) + bi (ix2 p j))
          (fused (rowOf a p) (ent z) (colOf w (gcol 1 j)) + bf (ix2 p j))
          (fused (rowOf a p) (ent z) (colOf w (gcol 2 j)) + bo (ix2 p j))
          (fused (rowOf a p) (ent z) (colOf w (gcol 3 j)) + bg (ix2 p j)) (cc (ix2 p j)) := by
  unfold hBlock
  rw [View.canon_unit_zero zeros2]
  simp only [View.ld_unit_zero (S := S512x4096) zeros2, View.ld_unit_zero (S := S4096x512) zeros2,
    View.ld_unit_zero (S := S512x512) zeros2, View.ld_unit_zero (S := S512x128) zeros2]
  exact pay3_apply a z w bi bf bo bg cc p j

/-- The stored c_new block at (p, j). -/
theorem cBlock_apply (a : Vec Ideal S512x4096 .f32) (z : Vec Ideal S4096x512 .f32) (w : Vec Ideal S512x512 .f32)
    (cc bi bf bg bo : Vec Ideal S512x128 .f32) (p : Fin 512) (j : Fin 128) :
    cBlock (F := Ideal) a z w cc bi bf bg bo (ix2 p j)
      = cellC (fused (rowOf a p) (ent z) (colOf w (gcol 0 j)) + bi (ix2 p j))
          (fused (rowOf a p) (ent z) (colOf w (gcol 1 j)) + bf (ix2 p j))
          (fused (rowOf a p) (ent z) (colOf w (gcol 3 j)) + bg (ix2 p j)) (cc (ix2 p j)) := by
  unfold cBlock
  rw [View.canon_unit_zero zeros2]
  simp only [View.ld_unit_zero (S := S512x4096) zeros2, View.ld_unit_zero (S := S4096x512) zeros2,
    View.ld_unit_zero (S := S512x512) zeros2, View.ld_unit_zero (S := S512x128) zeros2]
  exact pay2_apply a z w bi bf bg cc p j

/-- The printed index maps over the grid: a row-blocked window is at block (t, 0), the resident ones at (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-! ## Each result as one function of the arrays the region finds -/

/-- h_new at (r, j) in the program's own arrangement: the fused sums at the four gate columns. -/
def kerH (A : Mat 4096 4096) (Z : Mat 4096 512) (W : Mat 512 512) (C Bi Bf Bg Bo : Mat 4096 128) (r : Fin 4096) (j : Fin 128) : EReal :=
  cellH (fused (rowOf A r) (ent Z) (colOf W (gcol 0 j)) + Bi (ix2 r j))
    (fused (rowOf A r) (ent Z) (colOf W (gcol 1 j)) + Bf (ix2 r j))
    (fused (rowOf A r) (ent Z) (colOf W (gcol 2 j)) + Bo (ix2 r j))
    (fused (rowOf A r) (ent Z) (colOf W (gcol 3 j)) + Bg (ix2 r j)) (C (ix2 r j))

/-- c_new at (r, j). -/
def kerC (A : Mat 4096 4096) (Z : Mat 4096 512) (W : Mat 512 512) (C Bi Bf Bg : Mat 4096 128) (r : Fin 4096) (j : Fin 128) : EReal :=
  cellC (fused (rowOf A r) (ent Z) (colOf W (gcol 0 j)) + Bi (ix2 r j))
    (fused (rowOf A r) (ent Z) (colOf W (gcol 1 j)) + Bf (ix2 r j))
    (fused (rowOf A r) (ent Z) (colOf W (gcol 3 j)) + Bg (ix2 r j)) (C (ix2 r j))

/-- The same as arrays. -/
def kerHArr (A : Mat 4096 4096) (Z : Mat 4096 512) (W : Mat 512 512) (C Bi Bf Bg Bo : Mat 4096 128) : Mat 4096 128 :=
  fun i => kerH A Z W C Bi Bf Bg Bo ⟨(i 0).val, idx2_lt0 i⟩ ⟨(i 1).val, idx2_lt1 i⟩
def kerCArr (A : Mat 4096 4096) (Z : Mat 4096 512) (W : Mat 512 512) (C Bi Bf Bg : Mat 4096 128) : Mat 4096 128 :=
  fun i => kerC A Z W C Bi Bf Bg ⟨(i 0).val, idx2_lt0 i⟩ ⟨(i 1).val, idx2_lt1 i⟩

/-- Row `p` of block `t` is row `512 t + p` of the array. -/
def rowAt (t : ℕ) (ht : t < 8) (p : ℕ) (hp : p < 512) : Fin 4096 := ⟨512 * t + p, by omega⟩

/-- A stored h_new block is the block of `kerH`: when the row-blocked inputs are rows 512 t … of their arrays. -/
theorem hBlock_block (a : Vec Ideal S512x4096 .f32) (z : Vec Ideal S4096x512 .f32) (w : Vec Ideal S512x512 .f32)
    (cc bi bf bg bo : Vec Ideal S512x128 .f32) (A : Mat 4096 4096) (C Bi Bf Bg Bo : Mat 4096 128) (t : ℕ) (ht : t < 8)
    (ha : ∀ (p : Fin 512) (n : Fin 4096), a (ix2 p n) = A (ix2 (rowAt t ht p.val p.isLt) n))
    (hc : ∀ (p : Fin 512) (j : Fin 128), cc (ix2 p j) = C (ix2 (rowAt t ht p.val p.isLt) j))
    (hbi : ∀ (p : Fin 512) (j : Fin 128), bi (ix2 p j) = Bi (ix2 (rowAt t ht p.val p.isLt) j))
    (hbf : ∀ (p : Fin 512) (j : Fin 128), bf (ix2 p j) = Bf (ix2 (rowAt t ht p.val p.isLt) j))
    (hbg : ∀ (p : Fin 512) (j : Fin 128), bg (ix2 p j) = Bg (ix2 (rowAt t ht p.val p.isLt) j))
    (hbo : ∀ (p : Fin 512) (j : Fin 128), bo (ix2 p j) = Bo (ix2 (rowAt t ht p.val p.isLt) j))
    (p : Fin 512) (j : Fin 128) :
    hBlock (F := Ideal) a z w cc bi bf bg bo (ix2 p j) = kerH A z w C Bi Bf Bg Bo (rowAt t ht p.val p.isLt) j := by
  rw [hBlock_apply]
  unfold kerH
  have hr : rowOf a p = rowOf A (rowAt t ht p.val p.isLt) := funext fun n => ha p n
  rw [hr, hc, hbi, hbf, hbg, hbo]

/-- A stored c_new block is the block of `kerC`. -/
theorem cBlock_block (a : Vec Ideal S512x4096 .f32) (z : Vec Ideal S4096x512 .f32) (w : Vec Ideal S512x512 .f32)
    (cc bi bf bg bo : Vec Ideal S512x128 .f32) (A : Mat 4096 4096) (C Bi Bf Bg : Mat 4096 128) (t : ℕ) (ht : t < 8)
    (ha : ∀ (p : Fin 512) (n : Fin 4096), a (ix2 p n) = A (ix2 (rowAt t ht p.val p.isLt) n))
    (hc : ∀ (p : Fin 512) (j : Fin 128), cc (ix2 p j) = C (ix2 (rowAt t ht p.val p.isLt) j))
    (hbi : ∀ (p : Fin 512) (j : Fin 128), bi (ix2 p j) = Bi (ix2 (rowAt t ht p.val p.isLt) j))
    (hbf : ∀ (p : Fin 512) (j : Fin 128), bf (ix2 p j) = Bf (ix2 (rowAt t ht p.val p.isLt) j))
    (hbg : ∀ (p : Fin 512) (j : Fin 128), bg (ix2 p j) = Bg (ix2 (rowAt t ht p.val p.isLt) j))
    (p : Fin 512) (j : Fin 128) :
    cBlock (F := Ideal) a z w cc bi bf bg bo (ix2 p j) = kerC A z w C Bi Bf Bg (rowAt t ht p.val p.isLt) j := by
  rw [cBlock_apply]
  unfold kerC
  have hr : rowOf a p = rowOf A (rowAt t ht p.val p.isLt) := funext fun n => ha p n
  rw [hr, hc, hbi, hbf, hbg]

variable (m : (ℓ : Loc nD τ sig) → Buf (Elt Ideal) ℓ)

theorem N8 (t : Fin cfg0.N) : t.val < 8 := Nat.lt_of_lt_of_le t.isLt (Nat.le_of_eq N_0)

/-- The point's block of A is rows 512 t … of A. -/
theorem blk0_at (c : Dev nD) (t : Fin cfg0.N) (p : Fin 512) (n : Fin 4096) :
    (blk m c 0 t : S512x4096.Idx → EReal) (ix2 p n) = (entry m c main_arg1 : S4096x4096.Idx → EReal) (ix2 (rowAt t.val (N8 t) p.val p.isLt) n) := by
  obtain ⟨e0, e1, -⟩ := idx_facts t
  show entry m c main_arg1 (((cfg0.win 0).blk t).view.emb (ix2 p n)) = _
  congr 1
  funext a; apply Fin.ext
  match a with
  | ⟨0, _⟩ => show win0_0.index t (0 : Fin 2) * 512 + 1 * p.val = 512 * t.val + p.val; omega
  | ⟨1, _⟩ => show win0_0.index t (1 : Fin 2) * 4096 + 1 * n.val = n.val; omega

/-- Z and the block matrix are fetched whole. -/
theorem blk1_eq (c : Dev nD) (t : Fin cfg0.N) : (blk m c 1 t : S4096x512.Idx → EReal) = entry m c main_v0 := by
  obtain ⟨-, -, e0, e1, -⟩ := idx_facts t
  funext y
  show entry m c main_v0 (((cfg0.win 1).blk t).view.emb y) = _
  congr 1
  funext a; apply Fin.ext
  match a with
  | ⟨0, _⟩ => show win0_1.index t (0 : Fin 2) * 4096 + 1 * (y 0).val = (y 0).val; omega
  | ⟨1, _⟩ => show win0_1.index t (1 : Fin 2) * 512 + 1 * (y 1).val = (y 1).val; omega
theorem blk2_eq (c : Dev nD) (t : Fin cfg0.N) : (blk m c 2 t : S512x512.Idx → EReal) = entry m c main_v5 := by
  obtain ⟨-, -, -, -, e0, e1, -⟩ := idx_facts t
  funext y
  show entry m c main_v5 (((cfg0.win 2).blk t).view.emb y) = _
  congr 1
  funext a; apply Fin.ext
  match a with
  | ⟨0, _⟩ => show win0_2.index t (0 : Fin 2) * 512 + 1 * (y 0).val = (y 0).val; omega
  | ⟨1, _⟩ => show win0_2.index t (1 : Fin 2) * 512 + 1 * (y 1).val = (y 1).val; omega

/-- The point's block of window 3 is rows 512 t … of its array. -/
theorem blk3_at (c : Dev nD) (t : Fin cfg0.N) (p : Fin 512) (j : Fin 128) :
    (blk m c 3 t : S512x128.Idx → EReal) (ix2 p j) = (entry m c main_arg3 : S4096x128.Idx → EReal) (ix2 (rowAt t.val (N8 t) p.val p.isLt) j) := by
  obtain ⟨-, -, -, -, -, -, e0, e1, -⟩ := idx_facts t
  show entry m c main_arg3 (((cfg0.win 3).blk t).view.emb (ix2 p j)) = _
  congr 1
  funext a; apply Fin.ext
  match a with
  | ⟨0, _⟩ => show win0_3.index t (0 : Fin 2) * 512 + 1 * p.val = 512 * t.val + p.val; omega
  | ⟨1, _⟩ => show win0_3.index t (1 : Fin 2) * 128 + 1 * j.val = j.val; omega
/-- The point's block of window 4 is rows 512 t … of its array. -/
theorem blk4_at (c : Dev nD) (t : Fin cfg0.N) (p : Fin 512) (j : Fin 128) :
    (blk m c 4 t : S512x128.Idx → EReal) (ix2 p j) = (entry m c main_arg15 : S4096x128.Idx → EReal) (ix2 (rowAt t.val (N8 t) p.val p.isLt) j) := by
  obtain ⟨-, -, -, -, -, -, -, -, e0, e1, -⟩ := idx_facts t
  show entry m c main_arg15 (((cfg0.win 4).blk t).view.emb (ix2 p j)) = _
  congr 1
  funext a; apply Fin.ext
  match a with
  | ⟨0, _⟩ => show win0_4.index t (0 : Fin 2) * 512 + 1 * p.val = 512 * t.val + p.val; omega
  | ⟨1, _⟩ => show win0_4.index t (1 : Fin 2) * 128 + 1 * j.val = j.val; omega
/-- The point's block of window 5 is rows 512 t … of its array. -/
theorem blk5_at (c : Dev nD) (t : Fin cfg0.N) (p : Fin 512) (j : Fin 128) :
    (blk m c 5 t : S512x128.Idx → EReal) (ix2 p j) = (entry m c main_arg16 : S4096x128.Idx → EReal) (ix2 (rowAt t.val (N8 t) p.val p.isLt) j) := by
  obtain ⟨-, -, -, -, -, -, -, -, -, -, e0, e1, -⟩ := idx_facts t
  show entry m c main_arg16 (((cfg0.win 5).blk t).view.emb (ix2 p j)) = _
  congr 1
  funext a; apply Fin.ext
  match a with
  | ⟨0, _⟩ => show win0_5.index t (0 : Fin 2) * 512 + 1 * p.val = 512 * t.val + p.val; omega
  | ⟨1, _⟩ => show win0_5.index t (1 : Fin 2) * 128 + 1 * j.val = j.val; omega
/-- The point's block of window 6 is rows 512 t … of its array. -/
theorem blk6_at (c : Dev nD) (t : Fin cfg0.N) (p : Fin 512) (j : Fin 128) :
    (blk m c 6 t : S512x128.Idx → EReal) (ix2 p j) = (entry m c main_arg17 : S4096x128.Idx → EReal) (ix2 (rowAt t.val (N8 t) p.val p.isLt) j) := by
  obtain ⟨-, -, -, -, -, -, -, -, -, -, -, -, e0, e1, -⟩ := idx_facts t
  show entry m c main_arg17 (((cfg0.win 6).blk t).view.emb (ix2 p j)) = _
  congr 1
  funext a; apply Fin.ext
  match a with
  | ⟨0, _⟩ => show win0_6.index t (0 : Fin 2) * 512 + 1 * p.val = 512 * t.val + p.val; omega
  | ⟨1, _⟩ => show win0_6.index t (1 : Fin 2) * 128 + 1 * j.val = j.val; omega
/-- The point's block of window 7 is rows 512 t … of its array. -/
theorem blk7_at (c : Dev nD) (t : Fin cfg0.N) (p : Fin 512) (j : Fin 128) :
    (blk m c 7 t : S512x128.Idx → EReal) (ix2 p j) = (entry m c main_arg18 : S4096x128.Idx → EReal) (ix2 (rowAt t.val (N8 t) p.val p.isLt) j) := by
  obtain ⟨-, -, -, -, -, -, -, -, -, -, -, -, -, -, e0, e1, -⟩ := idx_facts t
  show entry m c main_arg18 (((cfg0.win 7).blk t).view.emb (ix2 p j)) = _
  congr 1
  funext a; apply Fin.ext
  match a with
  | ⟨0, _⟩ => show win0_7.index t (0 : Fin 2) * 512 + 1 * p.val = 512 * t.val + p.val; omega
  | ⟨1, _⟩ => show win0_7.index t (1 : Fin 2) * 128 + 1 * j.val = j.val; omega

/-! ## What a point writes back, and the arrays after the run -/

/-- Point `t` writes block `t` of `kerHArr` of the arrays the region finds into h_new. -/
theorem flushed8_eq (c : Dev nD) (t : Fin cfg0.N) :
    (pdat m 0 c).flushed 8 t = ((cfg0.win 8).blk t).view.read (Elt Ideal) (kerHArr (entry m c main_arg1) (entry m c main_v0) (entry m c main_v5) (entry m c main_arg3) (entry m c main_arg15) (entry m c main_arg16) (entry m c main_arg17) (entry m c main_arg18)) := by
  show (cfg0.win 8).cut (grid0.coords t) ((pdat m 0 c).after 8 t) = _
  rw [left_8]
  obtain ⟨-, -, -, -, -, -, -, -, -, -, -, -, -, -, -, -, e0, e1, -⟩ := idx_facts t
  funext y
  obtain ⟨p, j, rfl⟩ : ∃ (p : Fin 512) (j : Fin 128), y = ix2 p j := ⟨y 0, y 1, eq_ix2 y⟩
  show hBlock (F := Ideal) (blk m c 0 t) (blk m c 1 t) (blk m c 2 t) (blk m c 3 t) (blk m c 4 t) (blk m c 5 t) (blk m c 6 t) (blk m c 7 t) (ix2 p j)
      = kerHArr (entry m c main_arg1) (entry m c main_v0) (entry m c main_v5) (entry m c main_arg3) (entry m c main_arg15) (entry m c main_arg16) (entry m c main_arg17) (entry m c main_arg18) (((cfg0.win 8).blk t).view.emb (ix2 p j))
  rw [blk1_eq m c t, blk2_eq m c t]
  refine (hBlock_block (blk m c 0 t) (entry m c main_v0) (entry m c main_v5) (blk m c 3 t) (blk m c 4 t) (blk m c 5 t) (blk m c 6 t) (blk m c 7 t)
    (entry m c main_arg1) (entry m c main_arg3) (entry m c main_arg15) (entry m c main_arg16) (entry m c main_arg17) (entry m c main_arg18)
    t.val (N8 t) (blk0_at m c t) (blk3_at m c t) (blk4_at m c t) (blk5_at m c t) (blk6_at m c t) (blk7_at m c t) p j).trans ?_
  unfold kerHArr
  congr 1
  · apply Fin.ext
    show 512 * t.val + p.val = win0_8.index t (0 : Fin 2) * 512 + 1 * p.val
    omega
  · apply Fin.ext
    show j.val = win0_8.index t (1 : Fin 2) * 128 + 1 * j.val
    omega

/-- and block `t` of `kerCArr` into c_new. -/
theorem flushed9_eq (c : Dev nD) (t : Fin cfg0.N) :
    (pdat m 0 c).flushed 9 t = ((cfg0.win 9).blk t).view.read (Elt Ideal) (kerCArr (entry m c main_arg1) (entry m c main_v0) (entry m c main_v5) (entry m c main_arg3) (entry m c main_arg15) (entry m c main_arg16) (entry m c main_arg17)) := by
  show (cfg0.win 9).cut (grid0.coords t) ((pdat m 0 c).after 9 t) = _
  rw [left_9]
  obtain ⟨-, -, -, -, -, -, -, -, -, -, -, -, -, -, -, -, -, -, e0, e1⟩ := idx_facts t
  funext y
  obtain ⟨p, j, rfl⟩ : ∃ (p : Fin 512) (j : Fin 128), y = ix2 p j := ⟨y 0, y 1, eq_ix2 y⟩
  show cBlock (F := Ideal) (blk m c 0 t) (blk m c 1 t) (blk m c 2 t) (blk m c 3 t) (blk m c 4 t) (blk m c 5 t) (blk m c 6 t) (blk m c 7 t) (ix2 p j)
      = kerCArr (entry m c main_arg1) (entry m c main_v0) (entry m c main_v5) (entry m c main_arg3) (entry m c main_arg15) (entry m c main_arg16) (entry m c main_arg17) (((cfg0.win 9).blk t).view.emb (ix2 p j))
  rw [blk1_eq m c t, blk2_eq m c t]
  refine (cBlock_block (blk m c 0 t) (entry m c main_v0) (entry m c main_v5) (blk m c 3 t) (blk m c 4 t) (blk m c 5 t) (blk m c 6 t) (blk m c 7 t)
    (entry m c main_arg1) (entry m c main_arg3) (entry m c main_arg15) (entry m c main_arg16) (entry m c main_arg17)
    t.val (N8 t) (blk0_at m c t) (blk3_at m c t) (blk4_at m c t) (blk5_at m c t) (blk6_at m c t) p j).trans ?_
  unfold kerCArr
  congr 1
  · apply Fin.ext
    show 512 * t.val + p.val = win0_9.index t (0 : Fin 2) * 512 + 1 * p.val
    omega
  · apply Fin.ext
    show j.val = win0_9.index t (1 : Fin 2) * 128 + 1 * j.val
    omega

/-- An index of a result array is in point `t`'s block iff each coordinate is in the block's range on its axis. -/
theorem mem_blk8 (t : Fin cfg0.N) (i : S4096x128.Idx) :
    i ∈ ((cfg0.win 8).blk t).view.set ↔ ∀ a : Fin 2, win0_8.index t a * S512x128.size a ≤ (i a).val ∧ (i a).val < win0_8.index t a * S512x128.size a + S512x128.size a := by
  show i ∈ ((View.whole main_v6_0).slice (win0_8.rect t)).set ↔ _
  rw [View.set_slice_whole, Rect.mem_set_unit]
  exact Iff.rfl
theorem mem_blk9 (t : Fin cfg0.N) (i : S4096x128.Idx) :
    i ∈ ((cfg0.win 9).blk t).view.set ↔ ∀ a : Fin 2, win0_9.index t a * S512x128.size a ≤ (i a).val ∧ (i a).val < win0_9.index t a * S512x128.size a + S512x128.size a := by
  show i ∈ ((View.whole main_v6_1).slice (win0_9.rect t)).set ↔ _
  rw [View.set_slice_whole, Rect.mem_set_unit]
  exact Iff.rfl

/-- Every row block is some point's. -/
theorem onto8 : ∀ q : Fin 8, ∃ t : Fin cfg0.N, win0_8.index t = ![q.val, 0] :=
  (by decide +kernel : ∀ q : Fin 8, ∃ t : Fin grid0.N, win0_8.index t = ![q.val, 0])
theorem onto9 : ∀ q : Fin 8, ∃ t : Fin cfg0.N, win0_9.index t = ![q.val, 0] :=
  (by decide +kernel : ∀ q : Fin 8, ∃ t : Fin grid0.N, win0_9.index t = ![q.val, 0])

/-- The eight blocks of 512 rows cover the 4096 rows: row r is in block r / 512. -/
theorem cover8 (i : S4096x128.Idx) : ∃ t : Fin cfg0.N, (cfg0.win 8).flush t = true ∧ i ∈ ((cfg0.win 8).blk t).view.set := by
  have hi0 : (i 0).val < 4096 := (i 0).isLt
  have hi1 : (i 1).val < 128 := (i 1).isLt
  obtain ⟨t, ht⟩ := onto8 ⟨(i 0).val / 512, by omega⟩
  have q0 : win0_8.index t (0 : Fin 2) = (i 0).val / 512 := congrFun ht 0
  have q1 : win0_8.index t (1 : Fin 2) = 0 := congrFun ht 1
  refine ⟨t, flush0_8 t, ?_⟩
  rw [mem_blk8]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 128 ≤ (i 1).val ∧ (i 1).val < win0_8.index t (1 : Fin 2) * 128 + 128; omega
theorem cover9 (i : S4096x128.Idx) : ∃ t : Fin cfg0.N, (cfg0.win 9).flush t = true ∧ i ∈ ((cfg0.win 9).blk t).view.set := by
  have hi0 : (i 0).val < 4096 := (i 0).isLt
  have hi1 : (i 1).val < 128 := (i 1).isLt
  obtain ⟨t, ht⟩ := onto9 ⟨(i 0).val / 512, by omega⟩
  have q0 : win0_9.index t (0 : Fin 2) = (i 0).val / 512 := congrFun ht 0
  have q1 : win0_9.index t (1 : Fin 2) = 0 := congrFun ht 1
  refine ⟨t, flush0_9 t, ?_⟩
  rw [mem_blk9]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 128 ≤ (i 1).val ∧ (i 1).val < win0_9.index t (1 : Fin 2) * 128 + 128; omega

/-- h_new after the run. -/
theorem final_h (c : Dev nD) : (pdat m 0 c).arrAt 8 cfg0.N = kerHArr (entry m c main_arg1) (entry m c main_v0) (entry m c main_v5) (entry m c main_arg3) (entry m c main_arg15) (entry m c main_arg16) (entry m c main_arg17) (entry m c main_arg18) :=
  (pdat m 0 c).arrAt_eq_of_cover 8 _ (fun t _ => flushed8_eq m c t) cover8
/-- c_new after the run. -/
theorem final_c (c : Dev nD) : (pdat m 0 c).arrAt 9 cfg0.N = kerCArr (entry m c main_arg1) (entry m c main_v0) (entry m c main_v5) (entry m c main_arg3) (entry m c main_arg15) (entry m c main_arg16) (entry m c main_arg17) :=
  (pdat m 0 c).arrAt_eq_of_cover 9 _ (fun t _ => flushed9_eq m c t) cover9

/-- Entry (r, j) of each. -/
theorem final_h_at (c : Dev nD) (r : Fin 4096) (j : Fin 128) :
    ((pdat m 0 c).arrAt 8 cfg0.N : S4096x128.Idx → EReal) (ix2 r j) = kerH (entry m c main_arg1) (entry m c main_v0) (entry m c main_v5) (entry m c main_arg3) (entry m c main_arg15) (entry m c main_arg16) (entry m c main_arg17) (entry m c main_arg18) r j := by
  rw [final_h]; rfl
theorem final_c_at (c : Dev nD) (r : Fin 4096) (j : Fin 128) :
    ((pdat m 0 c).arrAt 9 cfg0.N : S4096x128.Idx → EReal) (ix2 r j) = kerC (entry m c main_arg1) (entry m c main_v0) (entry m c main_v5) (entry m c main_arg3) (entry m c main_arg15) (entry m c main_arg16) (entry m c main_arg17) r j := by
  rw [final_c]; rfl

end Cert.CellValue

end
-- ==== Proof.CellBridge.lean ====
/-
  The program's arrangement meets the reference's.

  Read at (r, j), each gate's fused sum over the 512 stacked positions — row r of A, the side-by-side features
  Z = [X | h | c], the gate's column of the block matrix — is the sum of the gate's graph convolutions, because Z's three
  stretches are X, h and c and the column's three stretches are the gate's three weight columns (the candidate gate's
  third stretch is zero).  That is the one place where every entry must be a real number.  With it both results, in
  the arrangement the program computes them in, are the cell's formula of the reference's pre-activations.
-/
import proofs.«163595_g21629455302669_cont_8to1_1577_2_alg».proof.Proof.CellEntry
import proofs.«163595_g21629455302669_cont_8to1_1577_2_alg».proof.Proof.CellValue
import Idealize.ShloMosaic.PureOps.Ideal.Laws

set_option maxRecDepth 16384

noncomputable section

namespace Cert.CellBridge

open Idealize.ShloMosaic Idealize.ShloMosaic.ValueIdx Idealize.ShloMosaic.TcCoe Idealize.SL.Sem
open Cert.KernelIdeal Cert.KernelIdeal.Gen Cert.KernelIdeal.CellFrame Cert.CellSpec Cert.CellPayload Cert.CellEntry Cert.CellValue

variable (m : (ℓ : Loc nD τ sig) → Buf (Elt Ideal) ℓ)

/-! ## Z's three stretches -/

theorem Z_X (c : Dev nD) (n : Fin 4096) (k : Fin 256) :
    (entry m c main_v0 : S4096x512.Idx → EReal) (ix2 n ⟨k.val, Nat.lt_of_lt_of_le k.isLt (by decide)⟩) = (m ((c : Thread nD τ).loc main_arg0)) (ix2 n k) := by
  rw [entry_Z]; exact (cols3 _ _ _ concatenates_S4096x256_S4096x128_S4096x128_S4096x512_d1 n).1 k
theorem Z_H (c : Dev nD) (n : Fin 4096) (k : Fin 128) :
    (entry m c main_v0 : S4096x512.Idx → EReal) (ix2 n ⟨256 + k.val, by have := k.isLt; omega⟩) = (m ((c : Thread nD τ).loc main_arg2)) (ix2 n k) := by
  rw [entry_Z]; exact (cols3 _ _ _ concatenates_S4096x256_S4096x128_S4096x128_S4096x512_d1 n).2.1 k
theorem Z_C (c : Dev nD) (n : Fin 4096) (k : Fin 128) :
    (entry m c main_v0 : S4096x512.Idx → EReal) (ix2 n ⟨384 + k.val, by have := k.isLt; omega⟩) = (m ((c : Thread nD τ).loc main_arg3)) (ix2 n k) := by
  rw [entry_Z]; exact (cols3 _ _ _ concatenates_S4096x256_S4096x128_S4096x128_S4096x512_d1 n).2.2 k

/-! ## The block matrix's stretches, gate by gate -/

theorem W_U0 (c : Dev nD) (k : Fin 256) (j : Fin 128) :
    (entry m c main_v5 : S512x512.Idx → EReal) (ix2 ⟨k.val, Nat.lt_of_lt_of_le k.isLt (by decide)⟩ (gcol 0 j)) = (m ((c : Thread nD τ).loc main_arg4)) (ix2 k j) := by
  rw [entry_W]
  exact ((rows3 _ _ _ concatenates_S256x512_S128x512_S128x512_S512x512_d0 (gcol 0 j)).1 k).trans (cols4 _ _ _ _ concatenates_S256x128_S256x128_S256x128_S256x128_S256x512_d1 k j).1
theorem W_W0 (c : Dev nD) (k : Fin 128) (j : Fin 128) :
    (entry m c main_v5 : S512x512.Idx → EReal) (ix2 ⟨256 + k.val, by have := k.isLt; omega⟩ (gcol 0 j)) = (m ((c : Thread nD τ).loc main_arg5)) (ix2 k j) := by
  rw [entry_W]
  exact ((rows3 _ _ _ concatenates_S256x512_S128x512_S128x512_S512x512_d0 (gcol 0 j)).2.1 k).trans (cols4 _ _ _ _ concatenates_S128x128_S128x128_S128x128_S128x128_S128x512_d1 k j).1
theorem W_V0 (c : Dev nD) (k : Fin 128) (j : Fin 128) :
    (entry m c main_v5 : S512x512.Idx → EReal) (ix2 ⟨384 + k.val, by have := k.isLt; omega⟩ (gcol 0 j)) = (m ((c : Thread nD τ).loc main_arg6)) (ix2 k j) := by
  rw [entry_W]
  exact ((rows3 _ _ _ concatenates_S256x512_S128x512_S128x512_S512x512_d0 (gcol 0 j)).2.2 k).trans (cols4 _ _ _ _ concatenates_S128x128_S128x128_S128x128_S128x128_S128x512_d1 k j).1
theorem W_U1 (c : Dev nD) (k : Fin 256) (j : Fin 128) :
    (entry m c main_v5 : S512x512.Idx → EReal) (ix2 ⟨k.val, Nat.lt_of_lt_of_le k.isLt (by decide)⟩ (gcol 1 j)) = (m ((c : Thread nD τ).loc main_arg7)) (ix2 k j) := by
  rw [entry_W]
  exact ((rows3 _ _ _ concatenates_S256x512_S128x512_S128x512_S512x512_d0 (gcol 1 j)).1 k).trans (cols4 _ _ _ _ concatenates_S256x128_S256x128_S256x128_S256x128_S256x512_d1 k j).2.1
theorem W_W1 (c : Dev nD) (k : Fin 128) (j : Fin 128) :
    (entry m c main_v5 : S512x512.Idx → EReal) (ix2 ⟨256 + k.val, by have := k.isLt; omega⟩ (gcol 1 j)) = (m ((c : Thread nD τ).loc main_arg8)) (ix2 k j) := by
  rw [entry_W]
  exact ((rows3 _ _ _ concatenates_S256x512_S128x512_S128x512_S512x512_d0 (gcol 1 j)).2.1 k).trans (cols4 _ _ _ _ concatenates_S128x128_S128x128_S128x128_S128x128_S128x512_d1 k j).2.1
theorem W_V1 (c : Dev nD) (k : Fin 128) (j : Fin 128) :
    (entry m c main_v5 : S512x512.Idx → EReal) (ix2 ⟨384 + k.val, by have := k.isLt; omega⟩ (gcol 1 j)) = (m ((c : Thread nD τ).loc main_arg9)) (ix2 k j) := by
  rw [entry_W]
  exact ((rows3 _ _ _ concatenates_S256x512_S128x512_S128x512_S512x512_d0 (gcol 1 j)).2.2 k).trans (cols4 _ _ _ _ concatenates_S128x128_S128x128_S128x128_S128x128_S128x512_d1 k j).2.1
theorem W_U2 (c : Dev nD) (k : Fin 256) (j : Fin 128) :
    (entry m c main_v5 : S512x512.Idx → EReal) (ix2 ⟨k.val, Nat.lt_of_lt_of_le k.isLt (by decide)⟩ (gcol 2 j)) = (m ((c : Thread nD τ).loc main_arg12)) (ix2 k j) := by
  rw [entry_W]
  exact ((rows3 _ _ _ concatenates_S256x512_S128x512_S128x512_S512x512_d0 (gcol 2 j)).1 k).trans (cols4 _ _ _ _ concatenates_S256x128_S256x128_S256x128_S256x128_S256x512_d1 k j).2.2.1
theorem W_W2 (c : Dev nD) (k : Fin 128) (j : Fin 128) :
    (entry m c main_v5 : S512x512.Idx → EReal) (ix2 ⟨256 + k.val, by have := k.isLt; omega⟩ (gcol 2 j)) = (m ((c : Thread nD τ).loc main_arg13)) (ix2 k j) := by
  rw [entry_W]
  exact ((rows3 _ _ _ concatenates_S256x512_S128x512_S128x512_S512x512_d0 (gcol 2 j)).2.1 k).trans (cols4 _ _ _ _ concatenates_S128x128_S128x128_S128x128_S128x128_S128x512_d1 k j).2.2.1
theorem W_V2 (c : Dev nD) (k : Fin 128) (j : Fin 128) :
    (entry m c main_v5 : S512x512.Idx → EReal) (ix2 ⟨384 + k.val, by have := k.isLt; omega⟩ (gcol 2 j)) = (m ((c : Thread nD τ).loc main_arg14)) (ix2 k j) := by
  rw [entry_W]
  exact ((rows3 _ _ _ concatenates_S256x512_S128x512_S128x512_S512x512_d0 (gcol 2 j)).2.2 k).trans (cols4 _ _ _ _ concatenates_S128x128_S128x128_S128x128_S128x128_S128x512_d1 k j).2.2.1
theorem W_U3 (c : Dev nD) (k : Fin 256) (j : Fin 128) :
    (entry m c main_v5 : S512x512.Idx → EReal) (ix2 ⟨k.val, Nat.lt_of_lt_of_le k.isLt (by decide)⟩ (gcol 3 j)) = (m ((c : Thread nD τ).loc main_arg10)) (ix2 k j) := by
  rw [entry_W]
  exact ((rows3 _ _ _ concatenates_S256x512_S128x512_S128x512_S512x512_d0 (gcol 3 j)).1 k).trans (cols4 _ _ _ _ concatenates_S256x128_S256x128_S256x128_S256x128_S256x512_d1 k j).2.2.2
theorem W_W3 (c : Dev nD) (k : Fin 128) (j : Fin 128) :
    (entry m c main_v5 : S512x512.Idx → EReal) (ix2 ⟨256 + k.val, by have := k.isLt; omega⟩ (gcol 3 j)) = (m ((c : Thread nD τ).loc main_arg11)) (ix2 k j) := by
  rw [entry_W]
  exact ((rows3 _ _ _ concatenates_S256x512_S128x512_S128x512_S512x512_d0 (gcol 3 j)).2.1 k).trans (cols4 _ _ _ _ concatenates_S128x128_S128x128_S128x128_S128x128_S128x512_d1 k j).2.2.2
/-- The candidate gate's stretch under c is the zero block. -/
theorem W_V3 (c : Dev nD) (k : Fin 128) (j : Fin 128) :
    (entry m c main_v5 : S512x512.Idx → EReal) (ix2 ⟨384 + k.val, by have := k.isLt; omega⟩ (gcol 3 j)) = (0 : EReal) := by
  rw [entry_W]
  refine (((rows3 _ _ _ concatenates_S256x512_S128x512_S128x512_S512x512_d0 (gcol 3 j)).2.2 k).trans (cols4 _ _ _ _ concatenates_S128x128_S128x128_S128x128_S128x128_S128x512_d1 k j).2.2.2).trans ?_
  show Ideal.ofBits .f32 0x00000000#32 = 0
  exact Ideal.ofBits_zero_f32

/-! ## The gates -/

/-- Gate i: the fused sum at its column is the sum of its three convolutions. -/
theorem gate_i (c : Dev nD) (hA : ∀ i, IsReal ((m ((c : Thread nD τ).loc main_arg1)) i)) (hX : ∀ i, IsReal ((m ((c : Thread nD τ).loc main_arg0)) i)) (hH : ∀ i, IsReal ((m ((c : Thread nD τ).loc main_arg2)) i)) (hC : ∀ i, IsReal ((m ((c : Thread nD τ).loc main_arg3)) i))
    (hU : ∀ i, IsReal ((m ((c : Thread nD τ).loc main_arg4)) i)) (hW : ∀ i, IsReal ((m ((c : Thread nD τ).loc main_arg5)) i)) (hV : ∀ i, IsReal ((m ((c : Thread nD τ).loc main_arg6)) i)) (r : Fin 4096) (j : Fin 128) :
    fused (rowOf (m ((c : Thread nD τ).loc main_arg1)) r) (ent (entry m c main_v0 : Mat 4096 512)) (colOf (entry m c main_v5 : Mat 512 512) (gcol 0 j))
      = gconv (rowOf (m ((c : Thread nD τ).loc main_arg1)) r) (ent (m ((c : Thread nD τ).loc main_arg0))) (colOf (m ((c : Thread nD τ).loc main_arg4)) j) + gconv (rowOf (m ((c : Thread nD τ).loc main_arg1)) r) (ent (m ((c : Thread nD τ).loc main_arg2))) (colOf (m ((c : Thread nD τ).loc main_arg5)) j)
        + gconv (rowOf (m ((c : Thread nD τ).loc main_arg1)) r) (ent (m ((c : Thread nD τ).loc main_arg3))) (colOf (m ((c : Thread nD τ).loc main_arg6)) j) :=
  fuse _ _ _ _ _ _ _ _ _ (fun n => hA _) (fun n k => hX _) (fun n k => hH _) (fun n k => hC _) (fun k => hU _) (fun k => hW _) (fun k => hV _)
    (fun n k => Z_X m c n k) (fun n k => Z_H m c n k) (fun n k => Z_C m c n k)
    (fun k => W_U0 m c k j) (fun k => W_W0 m c k j) (fun k => W_V0 m c k j)

/-- Gate f: the fused sum at its column is the sum of its three convolutions. -/
theorem gate_f (c : Dev nD) (hA : ∀ i, IsReal ((m ((c : Thread nD τ).loc main_arg1)) i)) (hX : ∀ i, IsReal ((m ((c : Thread nD τ).loc main_arg0)) i)) (hH : ∀ i, IsReal ((m ((c : Thread nD τ).loc main_arg2)) i)) (hC : ∀ i, IsReal ((m ((c : Thread nD τ).loc main_arg3)) i))
    (hU : ∀ i, IsReal ((m ((c : Thread nD τ).loc main_arg7)) i)) (hW : ∀ i, IsReal ((m ((c : Thread nD τ).loc main_arg8)) i)) (hV : ∀ i, IsReal ((m ((c : Thread nD τ).loc main_arg9)) i)) (r : Fin 4096) (j : Fin 128) :
    fused (rowOf (m ((c : Thread nD τ).loc main_arg1)) r) (ent (entry m c main_v0 : Mat 4096 512)) (colOf (entry m c main_v5 : Mat 512 512) (gcol 1 j))
      = gconv (rowOf (m ((c : Thread nD τ).loc main_arg1)) r) (ent (m ((c : Thread nD τ).loc main_arg0))) (colOf (m ((c : Thread nD τ).loc main_arg7)) j) + gconv (rowOf (m ((c : Thread nD τ).loc main_arg1)) r) (ent (m ((c : Thread nD τ).loc main_arg2))) (colOf (m ((c : Thread nD τ).loc main_arg8)) j)
        + gconv (rowOf (m ((c : Thread nD τ).loc main_arg1)) r) (ent (m ((c : Thread nD τ).loc main_arg3))) (colOf (m ((c : Thread nD τ).loc main_arg9)) j) :=
  fuse _ _ _ _ _ _ _ _ _ (fun n => hA _) (fun n k => hX _) (fun n k => hH _) (fun n k => hC _) (fun k => hU _) (fun k => hW _) (fun k => hV _)
    (fun n k => Z_X m c n k) (fun n k => Z_H m c n k) (fun n k => Z_C m c n k)
    (fun k => W_U1 m c k j) (fun k => W_W1 m c k j) (fun k => W_V1 m c k j)

/-- Gate o: the fused sum at its column is the sum of its three convolutions. -/
theorem gate_o (c : Dev nD) (hA : ∀ i, IsReal ((m ((c : Thread nD τ).loc main_arg1)) i)) (hX : ∀ i, IsReal ((m ((c : Thread nD τ).loc main_arg0)) i)) (hH : ∀ i, IsReal ((m ((c : Thread nD τ).loc main_arg2)) i)) (hC : ∀ i, IsReal ((m ((c : Thread nD τ).loc main_arg3)) i))
    (hU : ∀ i, IsReal ((m ((c : Thread nD τ).loc main_arg12)) i)) (hW : ∀ i, IsReal ((m ((c : Thread nD τ).loc main_arg13)) i)) (hV : ∀ i, IsReal ((m ((c : Thread nD τ).loc main_arg14)) i)) (r : Fin 4096) (j : Fin 128) :
    fused (rowOf (m ((c : Thread nD τ).loc main_arg1)) r) (ent (entry m c main_v0 : Mat 4096 512)) (colOf (entry m c main_v5 : Mat 512 512) (gcol 2 j))
      = gconv (rowOf (m ((c : Thread nD τ).loc main_arg1)) r) (ent (m ((c : Thread nD τ).loc main_arg0))) (colOf (m ((c : Thread nD τ).loc main_arg12)) j) + gconv (rowOf (m ((c : Thread nD τ).loc main_arg1)) r) (ent (m ((c : Thread nD τ).loc main_arg2))) (colOf (m ((c : Thread nD τ).loc main_arg13)) j)
        + gconv (rowOf (m ((c : Thread nD τ).loc main_arg1)) r) (ent (m ((c : Thread nD τ).loc main_arg3))) (colOf (m ((c : Thread nD τ).loc main_arg14)) j) :=
  fuse _ _ _ _ _ _ _ _ _ (fun n => hA _) (fun n k => hX _) (fun n k => hH _) (fun n k => hC _) (fun k => hU _) (fun k => hW _) (fun k => hV _)
    (fun n k => Z_X m c n k) (fun n k => Z_H m c n k) (fun n k => Z_C m c n k)
    (fun k => W_U2 m c k j) (fun k => W_W2 m c k j) (fun k => W_V2 m c k j)

/-- The candidate gate: its stretch under c is zero, so two convolutions remain. -/
theorem gate_g (c : Dev nD) (hA : ∀ i, IsReal ((m ((c : Thread nD τ).loc main_arg1)) i)) (hX : ∀ i, IsReal ((m ((c : Thread nD τ).loc main_arg0)) i)) (hH : ∀ i, IsReal ((m ((c : Thread nD τ).loc main_arg2)) i)) (hC : ∀ i, IsReal ((m ((c : Thread nD τ).loc main_arg3)) i))
    (hU : ∀ i, IsReal ((m ((c : Thread nD τ).loc main_arg10)) i)) (hW : ∀ i, IsReal ((m ((c : Thread nD τ).loc main_arg11)) i)) (r : Fin 4096) (j : Fin 128) :
    fused (rowOf (m ((c : Thread nD τ).loc main_arg1)) r) (ent (entry m c main_v0 : Mat 4096 512)) (colOf (entry m c main_v5 : Mat 512 512) (gcol 3 j))
      = gconv (rowOf (m ((c : Thread nD τ).loc main_arg1)) r) (ent (m ((c : Thread nD τ).loc main_arg0))) (colOf (m ((c : Thread nD τ).loc main_arg10)) j) + gconv (rowOf (m ((c : Thread nD τ).loc main_arg1)) r) (ent (m ((c : Thread nD τ).loc main_arg2))) (colOf (m ((c : Thread nD τ).loc main_arg11)) j) :=
  fuse_noC _ _ _ _ _ (ent (m ((c : Thread nD τ).loc main_arg3))) _ _ (fun n => hA _) (fun n k => hX _) (fun n k => hH _) (fun n k => hC _) (fun k => hU _) (fun k => hW _)
    (fun n k => Z_X m c n k) (fun n k => Z_H m c n k) (fun n k => Z_C m c n k)
    (fun k => W_U3 m c k j) (fun k => W_W3 m c k j) (fun k => W_V3 m c k j)

/-! ## The two results -/

/-- h_new in the program's arrangement is the cell's formula of the reference's pre-activations. -/
theorem kerH_eq (c : Dev nD) (h0 : ∀ i, IsReal ((m ((c : Thread nD τ).loc main_arg0)) i)) (h1 : ∀ i, IsReal ((m ((c : Thread nD τ).loc main_arg1)) i)) (h2 : ∀ i, IsReal ((m ((c : Thread nD τ).loc main_arg2)) i)) (h3 : ∀ i, IsReal ((m ((c : Thread nD τ).loc main_arg3)) i)) (h4 : ∀ i, IsReal ((m ((c : Thread nD τ).loc main_arg4)) i)) (h5 : ∀ i, IsReal ((m ((c : Thread nD τ).loc main_arg5)) i)) (h6 : ∀ i, IsReal ((m ((c : Thread nD τ).loc main_arg6)) i)) (h7 : ∀ i, IsReal ((m ((c : Thread nD τ).loc main_arg7)) i)) (h8 : ∀ i, IsReal ((m ((c : Thread nD τ).loc main_arg8)) i)) (h9 : ∀ i, IsReal ((m ((c : Thread nD τ).loc main_arg9)) i)) (h10 : ∀ i, IsReal ((m ((c : Thread nD τ).loc main_arg10)) i)) (h11 : ∀ i, IsReal ((m ((c : Thread nD τ).loc main_arg11)) i)) (h12 : ∀ i, IsReal ((m ((c : Thread nD τ).loc main_arg12)) i)) (h13 : ∀ i, IsReal ((m ((c : Thread nD τ).loc main_arg13)) i)) (h14 : ∀ i, IsReal ((m ((c : Thread nD τ).loc main_arg14)) i)) (h15 : ∀ i, IsReal ((m ((c : Thread nD τ).loc main_arg15)) i)) (h16 : ∀ i, IsReal ((m ((c : Thread nD τ).loc main_arg16)) i)) (h17 : ∀ i, IsReal ((m ((c : Thread nD τ).loc main_arg17)) i)) (h18 : ∀ i, IsReal ((m ((c : Thread nD τ).loc main_arg18)) i)) (r : Fin 4096) (j : Fin 128) :
    kerH (entry m c main_arg1) (entry m c main_v0) (entry m c main_v5) (entry m c main_arg3) (entry m c main_arg15) (entry m c main_arg16)
        (entry m c main_arg17) (entry m c main_arg18) r j
      = cellH (pre3 (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg15)) r j)
          (pre3 (m ((c : Thread nD τ).loc main_arg1)) (m ((c : Thread nD τ).loc main_arg0)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg16)) r j)
          (pre3 (m ((c : Thread nD τ).loc main_arg1)) (m ((c : Thread nD τ).loc main_arg0)) (m ((c : Thread nD τ).loc main_arg2)) (m ((c : Thread nD τ).loc main_arg3)) (m ((c : Thread nD τ).loc main_arg12)) (m ((c : Thread nD τ).loc main_arg13)) (m ((c : Thread nD τ).loc main_arg14)) (m ((c : Thread nD τ).loc main_arg18)) r j)
          (pre2 (m ((c : Thread nD τ).loc main_arg1)) (m ((c : Thread nD τ).loc main_arg0)) (m ((c : Thread nD τ).loc main_arg2)) (m ((c : Thread nD τ).loc main_arg10)) (m ((c : Thread nD τ).loc main_arg11)) (m ((c : Thread nD τ).loc main_arg17)) r j) ((m ((c : Thread nD τ).loc main_arg3)) (ix2 r j)) := by
  unfold kerH pre3 pre2
  rw [entry_arg1 m c, entry_arg3 m c, entry_arg15 m c, entry_arg16 m c, entry_arg17 m c, entry_arg18 m c,
    gate_i m c h1 h0 h2 h3 h4 h5 h6 r j, gate_f m c h1 h0 h2 h3 h7 h8 h9 r j, gate_o m c h1 h0 h2 h3 h12 h13 h14 r j,
    gate_g m c h1 h0 h2 h3 h10 h11 r j]

/-- c_new likewise. -/
theorem kerC_eq (c : Dev nD) (h0 : ∀ i, IsReal ((m ((c : Thread nD τ).loc main_arg0)) i)) (h1 : ∀ i, IsReal ((m ((c : Thread nD τ).loc main_arg1)) i)) (h2 : ∀ i, IsReal ((m ((c : Thread nD τ).loc main_arg2)) i)) (h3 : ∀ i, IsReal ((m ((c : Thread nD τ).loc main_arg3)) i)) (h4 : ∀ i, IsReal ((m ((c : Thread nD τ).loc main_arg4)) i)) (h5 : ∀ i, IsReal ((m ((c : Thread nD τ).loc main_arg5)) i)) (h6 : ∀ i, IsReal ((m ((c : Thread nD τ).loc main_arg6)) i)) (h7 : ∀ i, IsReal ((m ((c : Thread nD τ).loc main_arg7)) i)) (h8 : ∀ i, IsReal ((m ((c : Thread nD τ).loc main_arg8)) i)) (h9 : ∀ i, IsReal ((m ((c : Thread nD τ).loc main_arg9)) i)) (h10 : ∀ i, IsReal ((m ((c : Thread nD τ).loc main_arg10)) i)) (h11 : ∀ i, IsReal ((m ((c : Thread nD τ).loc main_arg11)) i)) (h12 : ∀ i, IsReal ((m ((c : Thread nD τ).loc main_arg12)) i)) (h13 : ∀ i, IsReal ((m ((c : Thread nD τ).loc main_arg13)) i)) (h14 : ∀ i, IsReal ((m ((c : Thread nD τ).loc main_arg14)) i)) (h15 : ∀ i, IsReal ((m ((c : Thread nD τ).loc main_arg15)) i)) (h16 : ∀ i, IsReal ((m ((c : Thread nD τ).loc main_arg16)) i)) (h17 : ∀ i, IsReal ((m ((c : Thread nD τ).loc main_arg17)) i)) (h18 : ∀ i, IsReal ((m ((c : Thread nD τ).loc main_arg18)) i)) (r : Fin 4096) (j : Fin 128) :
    kerC (entry m c main_arg1) (entry m c main_v0) (entry m c main_v5) (entry m c main_arg3) (entry m c main_arg15) (entry m c main_arg16)
        (entry m c main_arg17) r j
      = cellC (pre3 (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg15)) r j)
          (pre3 (m ((c : Thread nD τ).loc main_arg1)) (m ((c : Thread nD τ).loc main_arg0)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg16)) r j)
          (pre2 (m ((c : Thread nD τ).loc main_arg1)) (m ((c : Thread nD τ).loc main_arg0)) (m ((c : Thread nD τ).loc main_arg2)) (m ((c : Thread nD τ).loc main_arg10)) (m ((c : Thread nD τ).loc main_arg11)) (m ((c : Thread nD τ).loc main_arg17)) r j) ((m ((c : Thread nD τ).loc main_arg3)) (ix2 r j)) := by
  unfold kerC pre3 pre2
  rw [entry_arg1 m c, entry_arg3 m c, entry_arg15 m c, entry_arg16 m c, entry_arg17 m c,
    gate_i m c h1 h0 h2 h3 h4 h5 h6 r j, gate_f m c h1 h0 h2 h3 h7 h8 h9 r j, gate_g m c h1 h0 h2 h3 h10 h11 r j]

end Cert.CellBridge

end
-- ==== Proof.CellRef.lean ====
/-
  The reference program, read at an entry: its eleven matrix products are the graph convolutions of the specification,
  its `1 / (1 + e^(-x))` is the logistic function, and the rest is the cell's formula operation for operation.
-/
import proofs.«163595_g21629455302669_cont_8to1_1577_2_alg».proof.Proof.Gen.ReferenceIdeal.Read
import proofs.«163595_g21629455302669_cont_8to1_1577_2_alg».proof.Proof.CellSpec
import proofs.«163595_g21629455302669_cont_8to1_1577_2_alg».proof.Proof.LibDense
import Idealize.ShloMosaic.Lib.IdealHost

noncomputable section

namespace Cert.CellRef

open Idealize.ShloMosaic Idealize.ShloMosaic.ValueIdx Cert.ReferenceIdeal Cert.ReferenceIdeal.Gen Cert.ReferenceIdeal.Read Cert.CellSpec

/-- The f32 pattern of one, as the reference's constants spell it. -/
theorem one_bits : FloatOps.ofBits (F := Ideal) .f32 0x3F800000#32 = (1 : EReal) :=
  Ideal.ofBits_one_f32

/-- The reference's `1 / (1 + e^(-x))` over its constant one is the logistic function. -/
theorem sigma_eq (x : EReal) :
    FloatOps.hostDivf (F := Ideal) (φ := .f32) (FloatOps.ofBits .f32 0x3F800000#32)
        (FloatOps.addf (FloatOps.ofBits .f32 0x3F800000#32) (FloatOps.hostUnary .exp (FloatOps.hostNegf x)))
      = Ideal.logistic x := by
  rw [one_bits]
  rfl

/-- A product `A (X W)` of the features of width 256 read at (r, j) is the graph convolution of row r and column j. -/
theorem gc_wide (X : FVec Ideal S4096x256 .f32) (A : FVec Ideal S4096x4096 .f32) (W : FVec Ideal S256x128 .f32)
    (r : Fin 4096) (j : Fin 128) :
    val_main_v1 (F := Ideal) X A W (ix2 r j) = gconv (rowOf A r) (ent X) (colOf W j) := by
  rw [val_main_v1_apply]
  unfold gconv rowOf colOf ent
  refine Finset.sum_congr rfl fun n _ => ?_
  rw [val_main_v0_apply]
  have e1 : lidx_main_v1 (ix2 r j) n = ix2 r n :=
    funext fun a => Fin.ext (by match a with | ⟨0, _⟩ => rfl | ⟨1, _⟩ => rfl)
  have e2 : ∀ k, lidx_main_v0 (ridx_main_v1 (ix2 r j) n) k = ix2 n k := fun k =>
    funext fun a => Fin.ext (by match a with | ⟨0, _⟩ => rfl | ⟨1, _⟩ => rfl)
  have e3 : ∀ k, ridx_main_v0 (ridx_main_v1 (ix2 r j) n) k = ix2 k j := fun k =>
    funext fun a => Fin.ext (by match a with | ⟨0, _⟩ => rfl | ⟨1, _⟩ => rfl)
  rw [e1]
  simp only [e2, e3]

/-- The same for the features of width 128 (the hidden state and the cell state). -/
theorem gc_narrow (A : FVec Ideal S4096x4096 .f32) (H : FVec Ideal S4096x128 .f32) (W : FVec Ideal S128x128 .f32)
    (r : Fin 4096) (j : Fin 128) :
    val_main_v3 (F := Ideal) A H W (ix2 r j) = gconv (rowOf A r) (ent H) (colOf W j) := by
  rw [val_main_v3_apply]
  unfold gconv rowOf colOf ent
  refine Finset.sum_congr rfl fun n _ => ?_
  rw [val_main_v2_apply]
  have e1 : lidx_main_v3 (ix2 r j) n = ix2 r n :=
    funext fun a => Fin.ext (by match a with | ⟨0, _⟩ => rfl | ⟨1, _⟩ => rfl)
  have e2 : ∀ k, lidx_main_v2 (ridx_main_v3 (ix2 r j) n) k = ix2 n k := fun k =>
    funext fun a => Fin.ext (by match a with | ⟨0, _⟩ => rfl | ⟨1, _⟩ => rfl)
  have e3 : ∀ k, ridx_main_v2 (ridx_main_v3 (ix2 r j) n) k = ix2 k j := fun k =>
    funext fun a => Fin.ext (by match a with | ⟨0, _⟩ => rfl | ⟨1, _⟩ => rfl)
  rw [e1]
  simp only [e2, e3]

/-- A gate's pre-activation with all three convolutions, as the reference adds it up. -/
theorem pre3_eq (X : FVec Ideal S4096x256 .f32) (A : FVec Ideal S4096x4096 .f32) (H C : FVec Ideal S4096x128 .f32)
    (Wu : FVec Ideal S256x128 .f32) (Ww Wv : FVec Ideal S128x128 .f32) (b : FVec Ideal S4096x128 .f32)
    (r : Fin 4096) (j : Fin 128) :
    val_main_v8 (F := Ideal) X A H C Wu Ww Wv b (ix2 r j) = pre3 A X H C Wu Ww Wv b r j := by
  rw [val_main_v8_apply, val_main_v7_apply, val_main_v4_apply, gc_wide, gc_narrow,
    (show val_main_v6 (F := Ideal) A C Wv (ix2 r j) = gconv (rowOf A r) (ent C) (colOf Wv j) from gc_narrow A C Wv r j)]
  rfl

/-- The candidate gate's pre-activation, which has no convolution of the cell state. -/
theorem pre2_eq (X : FVec Ideal S4096x256 .f32) (A : FVec Ideal S4096x4096 .f32) (H : FVec Ideal S4096x128 .f32)
    (Wu : FVec Ideal S256x128 .f32) (Ww : FVec Ideal S128x128 .f32) (b : FVec Ideal S4096x128 .f32)
    (r : Fin 4096) (j : Fin 128) :
    val_main_v50 (F := Ideal) X A H Wu Ww b (ix2 r j) = pre2 A X H Wu Ww b r j := by
  rw [val_main_v50_apply, val_main_v49_apply,
    (show val_main_v46 (F := Ideal) X A Wu (ix2 r j) = gconv (rowOf A r) (ent X) (colOf Wu j) from gc_wide X A Wu r j),
    (show val_main_v48 (F := Ideal) A H Ww (ix2 r j) = gconv (rowOf A r) (ent H) (colOf Ww j) from gc_narrow A H Ww r j)]
  rfl

/-- A gate with three convolutions is the logistic function of its pre-activation. -/
theorem gate3 (X : FVec Ideal S4096x256 .f32) (A : FVec Ideal S4096x4096 .f32) (H C : FVec Ideal S4096x128 .f32)
    (Wu : FVec Ideal S256x128 .f32) (Ww Wv : FVec Ideal S128x128 .f32) (b : FVec Ideal S4096x128 .f32)
    (r : Fin 4096) (j : Fin 128) :
    val_main_v14 (F := Ideal) X A H C Wu Ww Wv b (ix2 r j) = Ideal.logistic (pre3 A X H C Wu Ww Wv b r j) := by
  rw [val_main_v14_apply, val_main_v13_apply, val_main_cst_0_apply, val_main_v12_apply, val_main_v11_apply,
    val_main_cst_apply, val_main_v10_apply, val_main_v9_apply, pre3_eq]
  exact sigma_eq _

/-- The candidate is the hyperbolic tangent, twice, of its pre-activation. -/
theorem cand (X : FVec Ideal S4096x256 .f32) (A : FVec Ideal S4096x4096 .f32) (H : FVec Ideal S4096x128 .f32)
    (Wu : FVec Ideal S256x128 .f32) (Ww : FVec Ideal S128x128 .f32) (b : FVec Ideal S4096x128 .f32)
    (r : Fin 4096) (j : Fin 128) :
    val_main_v52 (F := Ideal) X A H Wu Ww b (ix2 r j) = Ideal.tanh (Ideal.tanh (pre2 A X H Wu Ww b r j)) := by
  rw [val_main_v52_apply, val_main_v51_apply, pre2_eq]
  rfl

/-- The reference's new cell state at (r, j). -/
theorem ref_c (x0 : FVec Ideal S4096x256 .f32) (x1 : FVec Ideal S4096x4096 .f32) (x2 : FVec Ideal S4096x128 .f32) (x3 : FVec Ideal S4096x128 .f32) (x4 : FVec Ideal S256x128 .f32) (x5 : FVec Ideal S128x128 .f32) (x6 : FVec Ideal S128x128 .f32) (x7 : FVec Ideal S256x128 .f32) (x8 : FVec Ideal S128x128 .f32) (x9 : FVec Ideal S128x128 .f32) (x10 : FVec Ideal S256x128 .f32) (x11 : FVec Ideal S128x128 .f32) (x15 : FVec Ideal S4096x128 .f32) (x16 : FVec Ideal S4096x128 .f32) (x17 : FVec Ideal S4096x128 .f32) (r : Fin 4096) (j : Fin 128) :
    val_main_v61 (F := Ideal) x0 x1 x2 x3 x4 x5 x6 x7 x8 x9 x10 x11 x15 x16 x17 (ix2 r j)
      = cellC (pre3 x1 x0 x2 x3 x4 x5 x6 x15 r j) (pre3 x1 x0 x2 x3 x7 x8 x9 x16 r j) (pre2 x1 x0 x2 x10 x11 x17 r j) (x3 (ix2 r j)) := by
  rw [val_main_v61_apply, val_main_v60_apply, val_main_cst_6_apply, val_main_v59_apply, val_main_v58_apply,
    val_main_cst_5_apply, val_main_v57_apply, val_main_v56_apply, sigma_eq, val_main_v55_apply, val_main_v53_apply,
    val_main_v54_apply, gate3,
    (show val_main_v29 (F := Ideal) x0 x1 x2 x3 x7 x8 x9 x16 (ix2 r j) = Ideal.logistic (pre3 x1 x0 x2 x3 x7 x8 x9 x16 r j)
      from gate3 x0 x1 x2 x3 x7 x8 x9 x16 r j), cand]
  rfl

/-- The reference's new hidden state at (r, j). -/
theorem ref_h (x0 : FVec Ideal S4096x256 .f32) (x1 : FVec Ideal S4096x4096 .f32) (x2 : FVec Ideal S4096x128 .f32) (x3 : FVec Ideal S4096x128 .f32) (x4 : FVec Ideal S256x128 .f32) (x5 : FVec Ideal S128x128 .f32) (x6 : FVec Ideal S128x128 .f32) (x7 : FVec Ideal S256x128 .f32) (x8 : FVec Ideal S128x128 .f32) (x9 : FVec Ideal S128x128 .f32) (x10 : FVec Ideal S256x128 .f32) (x11 : FVec Ideal S128x128 .f32) (x12 : FVec Ideal S256x128 .f32) (x13 : FVec Ideal S128x128 .f32) (x14 : FVec Ideal S128x128 .f32) (x15 : FVec Ideal S4096x128 .f32) (x16 : FVec Ideal S4096x128 .f32) (x17 : FVec Ideal S4096x128 .f32) (x18 : FVec Ideal S4096x128 .f32) (r : Fin 4096) (j : Fin 128) :
    val_main_v63 (F := Ideal) x0 x1 x2 x3 x4 x5 x6 x7 x8 x9 x10 x11 x12 x13 x14 x15 x16 x17 x18 (ix2 r j)
      = cellH (pre3 x1 x0 x2 x3 x4 x5 x6 x15 r j) (pre3 x1 x0 x2 x3 x7 x8 x9 x16 r j) (pre3 x1 x0 x2 x3 x12 x13 x14 x18 r j)
          (pre2 x1 x0 x2 x10 x11 x17 r j) (x3 (ix2 r j)) := by
  rw [val_main_v63_apply, val_main_v62_apply, ref_c,
    (show val_main_v44 (F := Ideal) x0 x1 x2 x3 x12 x13 x14 x18 (ix2 r j) = Ideal.logistic (pre3 x1 x0 x2 x3 x12 x13 x14 x18 r j)
      from gate3 x0 x1 x2 x3 x12 x13 x14 x18 r j)]
  rfl

end Cert.CellRef

end
-- ==== Proof.CellFinite.lean ====
/-
  The precondition says of each of the nineteen input arrays that every entry's absolute value is below +inf; on the
  extended reals that leaves exactly the real numbers (|x| < +inf excludes both infinities).  The precondition is the
  conjunction, array by array, of an all-entries test, so it gives the fact for every entry of every array.
-/
import proofs.«163595_g21629455302669_cont_8to1_1577_2_alg».proof.Pre_finite_inputs
import proofs.«163595_g21629455302669_cont_8to1_1577_2_alg».proof.Proof.Gen.Pre_finite_inputs
import proofs.«163595_g21629455302669_cont_8to1_1577_2_alg».proof.Proof.CellSpec
import Idealize.ShloMosaic.Lib.ReduceAll

noncomputable section

namespace Cert.CellFinite

open Idealize.ShloMosaic Cert.Pre_finite_inputs Cert.CellSpec

/-- An extended real whose absolute value max x (-x) is strictly below +inf (the value of the pattern 0x7F800000)
    is a real number: at the bottom and at the top element the absolute value is the top element, which is not
    below itself. -/
theorem isReal_of_abs_lt_inf (x : EReal)
    (h : FloatOps.cmpf (F := Ideal) (φ := .f32) .olt (FloatOps.hostAbsf x)
      (FloatOps.ofBits (F := Ideal) .f32 0x7F800000#32) = 1#1) : IsReal x := by
  have h' : Ideal.cmp .olt (max x (-x)) (Ideal.ofBits .f32 0x7F800000#32) = 1#1 := h
  induction x using EReal.rec with
  | bot => simp [Ideal.cmp, Ideal.ofBits, Ideal.ieee] at h'
  | coe r => exact ⟨r, rfl⟩
  | top => simp [Ideal.cmp, Ideal.ofBits, Ideal.ieee] at h'

/-- One array's test: if the conjunction over all entries of |a i| < +inf came out true, every entry is real.  A
    conjunction over all axes has a single result index, so each entry's comparison is one of its conjuncts. -/
theorem isReal_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant S_ .f32 0x7F800000#32)))
      (constantI S_ 1 1#1) hr hu ValueIdx.ix0 = 1#1) :
    ∀ i, IsReal (a i) := by
  intro i
  haveI : Subsingleton S_.Idx := ⟨fun p q => funext fun d => d.elim0⟩
  exact isReal_of_abs_lt_inf (a i) (Host.reduce_andi_all _ _ hr hu _ e i)

/-- Under the precondition every entry of every input array is a real number. -/
theorem all_real (a0 : FVec Ideal S4096x256 .f32) (a1 : FVec Ideal S4096x4096 .f32) (a2 : FVec Ideal S4096x128 .f32) (a3 : FVec Ideal S4096x128 .f32) (a4 : FVec Ideal S256x128 .f32) (a5 : FVec Ideal S128x128 .f32) (a6 : FVec Ideal S128x128 .f32) (a7 : FVec Ideal S256x128 .f32) (a8 : FVec Ideal S128x128 .f32) (a9 : FVec Ideal S128x128 .f32) (a10 : FVec Ideal S256x128 .f32) (a11 : FVec Ideal S128x128 .f32) (a12 : FVec Ideal S256x128 .f32) (a13 : FVec Ideal S128x128 .f32) (a14 : FVec Ideal S128x128 .f32) (a15 : FVec Ideal S4096x128 .f32) (a16 : FVec Ideal S4096x128 .f32) (a17 : FVec Ideal S4096x128 .f32) (a18 : FVec Ideal S4096x128 .f32)
    (h : Cert.Pre_finite_inputs.fn (F := Ideal) a0 a1 a2 a3 a4 a5 a6 a7 a8 a9 a10 a11 a12 a13 a14 a15 a16 a17 a18 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) ∧ (∀ i, IsReal (a15 i)) ∧ (∀ i, IsReal (a16 i)) ∧ (∀ i, IsReal (a17 i)) ∧ (∀ i, IsReal (a18 i)) := by
  -- the precondition at its one index is the conjunction of the nineteen all-entries tests
  have h0 := congrFun h ValueIdx.ix0
  simp only [fn, fn_part1, fn_part2, fn_part3, fn_part4, fn_part5, andi, IntOp.andi_eq_one, and_assoc] at h0
  obtain ⟨e0, e1, e2, e3, e4, e5, e6, e7, e8, e9, e10, e11, e12, e13, e14, e15, e16, e17, e18⟩ := h0
  exact ⟨isReal_of_all a0 _ _ _ e0,
    isReal_of_all a1 _ _ _ e1,
    isReal_of_all a2 _ _ _ e2,
    isReal_of_all a3 _ _ _ e3,
    isReal_of_all a4 _ _ _ e4,
    isReal_of_all a5 _ _ _ e5,
    isReal_of_all a6 _ _ _ e6,
    isReal_of_all a7 _ _ _ e7,
    isReal_of_all a8 _ _ _ e8,
    isReal_of_all a9 _ _ _ e9,
    isReal_of_all a10 _ _ _ e10,
    isReal_of_all a11 _ _ _ e11,
    isReal_of_all a12 _ _ _ e12,
    isReal_of_all a13 _ _ _ e13,
    isReal_of_all a14 _ _ _ e14,
    isReal_of_all a15 _ _ _ e15,
    isReal_of_all a16 _ _ _ e16,
    isReal_of_all a17 _ _ _ e17,
    isReal_of_all a18 _ _ _ e18⟩

end Cert.CellFinite

end
-- ==== Proof.CellClaims.lean ====
/-
  The five claims.

  The frames of the word-level and of the idealized program are the run of the one pallas_call behind its host
  operations; the reference's frame is its run with the results dropped.  The ideal pass rewrote nothing, so there is
  nothing to preserve.  For the equivalence both programs are run from memories that agree on the nineteen arguments:
  the program's h_new and c_new end, entry by entry, at the cell's formula of the fused sums (the arrays the eight
  write-backs assemble), the reference's at the cell's formula of the graph convolutions, and with every input a real
  number (the precondition) the fused sums are the convolutions' sums.
-/
import proofs.«163595_g21629455302669_cont_8to1_1577_2_alg».proof.Defs
import proofs.«163595_g21629455302669_cont_8to1_1577_2_alg».proof.Proof.Gen.Kernel
import proofs.«163595_g21629455302669_cont_8to1_1577_2_alg».proof.Proof.Gen.KernelIdeal
import proofs.«163595_g21629455302669_cont_8to1_1577_2_alg».proof.Proof.Gen.ReferenceIdeal
import proofs.«163595_g21629455302669_cont_8to1_1577_2_alg».proof.Proof.Gen.Pre_finite_inputs
import proofs.«163595_g21629455302669_cont_8to1_1577_2_alg».proof.Proof.Gen.ReferenceIdeal.Run
import proofs.«163595_g21629455302669_cont_8to1_1577_2_alg».proof.Proof.Gen.ReferenceIdeal.Read
import proofs.«163595_g21629455302669_cont_8to1_1577_2_alg».proof.Proof.CellFrame
import proofs.«163595_g21629455302669_cont_8to1_1577_2_alg».proof.Proof.CellFrameBits
import proofs.«163595_g21629455302669_cont_8to1_1577_2_alg».proof.Proof.CellBridge
import proofs.«163595_g21629455302669_cont_8to1_1577_2_alg».proof.Proof.CellRef
import proofs.«163595_g21629455302669_cont_8to1_1577_2_alg».proof.Proof.CellFinite

set_option maxRecDepth 16384

noncomputable section

namespace Cert.Proof.CellClaims

open Idealize.ShloMosaic Idealize.ShloMosaic.ValueIdx Idealize.ShloMosaic.TcCoe Idealize.SL.Sem

theorem frame_k : Cert.frame_Kernel := fun m ρ _ => Cert.Kernel.CellFrame.frame m ρ
theorem frame_ki : Cert.frame_KernelIdeal := fun m ρ _ => Cert.KernelIdeal.CellFrame.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

set_option maxHeartbeats 2000000 in
theorem algebraic : Cert.algebraic_KernelIdeal_ReferenceIdeal := by
  intro m ρ m' ρ' hpre hagree
  refine ⟨fun c => (Cert.KernelIdeal.CellFrame.pdat m 0 c).arrAt 8 Cert.KernelIdeal.cfg0.N,
    fun c => (Cert.KernelIdeal.CellFrame.pdat m 0 c).arrAt 9 Cert.KernelIdeal.cfg0.N,
    Cert.KernelIdeal.CellFrame.run_named (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · -- h_new
    obtain ⟨h0, h1, h2, h3, h4, h5, h6, h7, h8, h9, h10, h11, h12, h13, h14, h15, h16, h17, h18⟩ := Cert.CellFinite.all_real _ _ _ _ _ _ _ _ _ _ _ _ _ _ _ _ _ _ _ (hpre c)
    rw [Cert.ReferenceIdeal.Read.val_main_v63_eq]
    funext i
    obtain ⟨r, j, rfl⟩ : ∃ (r : Fin 4096) (j : Fin 128), i = ix2 r j := ⟨i 0, i 1, eq_ix2 i⟩
    rw [Cert.CellRef.ref_h, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2]
    exact ((Cert.CellValue.final_h_at m c r j).trans (Cert.CellBridge.kerH_eq m c h0 h1 h2 h3 h4 h5 h6 h7 h8 h9 h10 h11 h12 h13 h14 h15 h16 h17 h18 r j)).symm
  · -- c_new
    obtain ⟨h0, h1, h2, h3, h4, h5, h6, h7, h8, h9, h10, h11, h12, h13, h14, h15, h16, h17, h18⟩ := Cert.CellFinite.all_real _ _ _ _ _ _ _ _ _ _ _ _ _ _ _ _ _ _ _ (hpre c)
    rw [Cert.ReferenceIdeal.Read.val_main_v61_eq]
    funext i
    obtain ⟨r, j, rfl⟩ : ∃ (r : Fin 4096) (j : Fin 128), i = ix2 r j := ⟨i 0, i 1, eq_ix2 i⟩
    rw [Cert.CellRef.ref_c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1]
    exact ((Cert.CellValue.final_c_at m c r j).trans (Cert.CellBridge.kerC_eq m c h0 h1 h2 h3 h4 h5 h6 h7 h8 h9 h10 h11 h12 h13 h14 h15 h16 h17 h18 r j)).symm

end Cert.Proof.CellClaims

end
-- ==== Proof.lean ====
/-
  The graph-convolution LSTM cell: the fused kernel against its reference.

  The kernel computes all four gates from ONE product A [X | h | c] and one 512 x 512 block matrix of the eleven weight
  matrices, where the reference multiplies A into eleven separate products; over the reals the two are the same sums
  in another order and grouping, and the elementwise tail (three logistic gates, a twice-squashed candidate, the new
  cell and hidden states) is the same operation for operation.  The modules: CellSpec (the formulas and the
  regrouping law), CellFrame / CellFrameBits (the program runs and leaves its inputs alone; what it writes),
  CellPayload, CellValue, CellEntry, CellBridge (the written arrays, entry by entry, in the reference's arrangement),
  CellRef (the reference, entry by entry), CellFinite (the precondition makes every input a real number), CellClaims.
-/
import proofs.«163595_g21629455302669_cont_8to1_1577_2_alg».proof.Proof.CellClaims

noncomputable section

namespace Cert.Proof

theorem claim : Cert.Claim :=
  ⟨Cert.Kernel.Gen.facts, Cert.KernelIdeal.Gen.facts, Cert.ReferenceIdeal.Gen.facts, Cert.Pre_finite_inputs.Gen.facts,
    CellClaims.frame_k, CellClaims.frame_ki, CellClaims.frame_ri, CellClaims.preserves, CellClaims.algebraic⟩

end Cert.Proof

end
